-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_tau" .f32 0x42C80000#32 ((536870912 / 5368709 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S100000x128 : Shape := ⟨2, ![100000, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : FVec F S1024x128 .f32) (main_arg1 : FVec F S100000x128 .f32) (main_arg2 : FVec F S100000x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  main_v13
-- ==== Kernel.lean ====
abbrev S1024x128 : Shape := ⟨2, ![1024, 128]⟩
abbrev S100000x128 : Shape := ⟨2, ![100000, 128]⟩
abbrev S256x128 : Shape := ⟨2, ![256, 128]⟩
abbrev S800x128 : Shape := ⟨2, ![800, 128]⟩
abbrev S256x800 : Shape := ⟨2, ![256, 800]⟩
abbrev S256x1 : Shape := ⟨2, ![256, 1]⟩
abbrev S256 : Shape := ⟨1, ![256]⟩

abbrev nBuf : Space → Nat
  | .hbm => 7
  | .vmem => 11
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S100000x128, .f32⟩
  | .hbm, ⟨3, _⟩ => ⟨S1024x128, .bf16⟩
  | .hbm, ⟨4, _⟩ => ⟨S100000x128, .bf16⟩
  | .hbm, ⟨5, _⟩ => ⟨S100000x128, .bf16⟩
  | .hbm, ⟨6, _⟩ => ⟨S1024x128, .f32⟩
  | .local _ .vmem, ⟨0, _⟩ => ⟨S256x128, .bf16⟩
  | .local _ .vmem, ⟨1, _⟩ => ⟨S256x128, .bf16⟩
  | .local _ .vmem, ⟨2, _⟩ => ⟨S800x128, .bf16⟩
  | .local _ .vmem, ⟨3, _⟩ => ⟨S800x128, .bf16⟩
  | .local _ .vmem, ⟨4, _⟩ => ⟨S800x128, .bf16⟩
  | .local _ .vmem, ⟨5, _⟩ => ⟨S800x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 125], ![false, false]⟩

def k0_cond2 (i : grid0.Coords) : BitVec 1 :=
  let arg1 : BitVec 32 := BitVec.ofNat 32 (i 1).val
  let c124_i32 : BitVec 32 := 124#32
  let v47 : BitVec 1 := Scalar.cmpi .eq arg1 c124_i32
  let v48 : BitVec 32 := Scalar.extui v47
  let c0_i32_22 : BitVec 32 := 0#32
  let v49 : BitVec 1 := Scalar.cmpi .ne v48 c0_i32_22
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S800x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S800x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S800x128_S800x128_0_0 : ∀ a, (![0, 0] : Fin 2 → Nat) a + S800x128.size a ≤ S800x128.size a
  h_S800x128 : 0 < S800x128.numel
  shapeCasts_S800x128_S800x128 : S800x128.ShapeCasts S800x128
  slices_S256x128_o0_0_S256x1 : S256x128.Slices ![0, 0] S256x1
  reduces_S256x800_S256 : S256x800.Reduces [1] S256
  shapeCasts_S256_S256x1 : S256.ShapeCasts S256x1
  broadcasts_S256x1_S256x800 : S256x1.Broadcasts S256x800
  broadcasts_S256x1_S256x128 : S256x1.Broadcasts S256x128
  shapeCasts_S256x1_S256x1 : S256x1.ShapeCasts S256x1
  dot_S256x128_S800x128_S256x800_1_1_0_0_n_n_wf : DotDims.WF S256x128 S800x128 S256x800 [1] [1] [0] [0] [] []
  dot_S256x800_S800x128_S256x128_1_0_0_1_n_n_wf : DotDims.WF S256x800 S800x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S1024x128.size a
  hwx0_0 : ∀ i : grid0.Coords, EltTy.bits .bf16 = 32 ∨ (Rect.block (s := S1024x128) S256x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x128.size a ≤ S100000x128.size a
  hwx0_1 : ∀ i : grid0.Coords, EltTy.bits .bf16 = 32 ∨ (Rect.block (s := S100000x128) S800x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x128.size a ≤ S100000x128.size a
  hwx0_2 : ∀ i : grid0.Coords, EltTy.bits .bf16 = 32 ∨ (Rect.block (s := S100000x128) S800x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S1024x128.size a
  hwx0_3 : ∀ i : grid0.Coords, EltTy.bits .f32 = 32 ∨ (Rect.block (s := S1024x128) S256x128.size (cc0_transform_3 i) (hinb0_3 i)).WholeWords (EltTy.packing .f32)

variable [Facts₀]

def dot_S256x128_S800x128_S256x800_1_1_0_0_n_n : DotDims S256x128 S800x128 S256x800 where
  lhsContracting := [1]
  rhsContracting := [1]
  lhsNonContracting := [0]
  rhsNonContracting := [0]
  lhsBatch := []
  rhsBatch := []
  wf := dot_S256x128_S800x128_S256x800_1_1_0_0_n_n_wf
def dot_S256x800_S800x128_S256x128_1_0_0_1_n_n : DotDims S256x800 S800x128 S256x128 where
  lhsContracting := [1]
  rhsContracting := [0]
  lhsNonContracting := [0]
  rhsNonContracting := [1]
  lhsBatch := []
  rhsBatch := []
  wf := dot_S256x800_S800x128_S256x128_1_0_0_1_n_n_wf

abbrev win0_0 : Pipeline.Window sig grid0 :=
  Pipeline.Window.ofSpec (Memref.whole main_call0_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S800x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S800x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x128 : Shape := ⟨2, ![1024, 128]⟩
abbrev S100000x128 : Shape := ⟨2, ![100000, 128]⟩
abbrev S128x100000 : Shape := ⟨2, ![128, 100000]⟩
abbrev S1024x100000 : Shape := ⟨2, ![1024, 100000]⟩
abbrev S_ : Shape := ⟨0, ![]⟩
abbrev S1024 : Shape := ⟨1, ![1024]⟩
abbrev S1024x1 : Shape := ⟨2, ![1024, 1]⟩

abbrev nBuf : Space → Nat
  | .hbm => 23
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S100000x128, .f32⟩
  | .hbm, ⟨3, _⟩ => ⟨S128x100000, .f32⟩
  | .hbm, ⟨4, _⟩ => ⟨S1024x100000, .f32⟩
  | .hbm, ⟨5, _⟩ => ⟨S_, .f32⟩
  | .hbm, ⟨6, _⟩ => ⟨S1024x100000, .f32⟩
  | .hbm, ⟨7, _⟩ => ⟨S1024x100000, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024x1, .f32⟩
  | .hbm, ⟨14, _⟩ => ⟨S1024x100000, .f32⟩
  | .hbm, ⟨15, _⟩ => ⟨S1024x100000, .f32⟩
  | .hbm, ⟨16, _⟩ => ⟨S1024x100000, .f32⟩
  | .hbm, ⟨17, _⟩ => ⟨S_, .f32⟩
  | .hbm, ⟨18, _⟩ => ⟨S1024, .f32⟩
  | .hbm, ⟨19, _⟩ => ⟨S1024x1, .f32⟩
  | .hbm, ⟨20, _⟩ => ⟨S1024x100000, .f32⟩
  | .hbm, ⟨21, _⟩ => ⟨S1024x100000, .f32⟩
  | .hbm, ⟨22, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S100000x128_S128x100000_1_0 : S100000x128.Transposes [1, 0] S128x100000
  bcast_S_S1024x100000 : S_.BroadcastsInDim S1024x100000 (![] : Fin 0 → Fin S1024x100000.rank)
  reducesTo_S1024x100000_S1024_d1 : S1024x100000.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x100000_0_1 : S1024x1.BroadcastsInDim S1024x100000 (![0, 1] : Fin 2 → Fin S1024x100000.rank)
  dot_S1024x128_S128x100000_S1024x100000_1_0_0_1_n_n_wf : DotDims.WF S1024x128 S128x100000 S1024x100000 [1] [0] [0] [1] [] []
  dot_S1024x100000_S100000x128_S1024x128_1_0_0_1_n_n_wf : DotDims.WF S1024x100000 S100000x128 S1024x128 [1] [0] [0] [1] [] []

variable [Facts₀]

def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf
def dot_S1024x100000_S100000x128_S1024x128_1_0_0_1_n_n : DotDims S1024x100000 S100000x128 S1024x128 where
  lhsContracting := [1]
  rhsContracting := [0]
  lhsNonContracting := [0]
  rhsNonContracting := [1]
  lhsBatch := []
  rhsBatch := []
  wf := dot_S1024x100000_S100000x128_S1024x128_1_0_0_1_n_n_wf

class Facts : Prop extends Facts₀ where

variable [Facts]
-- ==== Proof.Pieces.lean ====
/-
  What one grid point leaves behind, as values. A point of the grid handles one block of 256 query rows against one
  block of 800 key rows, and carries three scratch arrays from one key block to the next: the running maximum, the
  running sum of weights, and the weighted accumulator. Each of the three cases of the body (first key block, a middle
  one, the last one) ends with whole-array stores; what each scratch then holds is the stored value, a pure function
  of the three input blocks and, except at the first key block, of what the scratch held before.
-/
import proofs.«150222_g335007450007_cont_8to1_b_1674_5_alg».proof.Proof.Gen.KernelIdeal.Frame
import Idealize.ShloMosaic.Lib.Pipeline.Value
import Idealize.ShloMosaic.Lib.Tactic

set_option maxRecDepth 16384

noncomputable section

namespace Cert.KernelIdeal.Online

open Cert.KernelIdeal Cert.KernelIdeal.Gen
open Idealize.ShloMosaic Idealize.ShloMosaic.TcCoe Idealize.ShloMosaic.Tactic Idealize.SL.Sem

variable {F : FTy → Type} [FloatOps F] [Named F]

/-- The zero offsets of a whole-buffer access. -/
theorem hz : (![0, 0] : Fin 2 → Nat) = fun _ => 0 := funext fun a => by fin_cases a <;> rfl

variable (c : Dev nD) (i : grid0.Coords)
  (a2 : Memref sig .tc .vmem S256x128 .bf16) (h2 : a2.IsWhole) (a3 : Memref sig .tc .vmem S800x128 .bf16) (h3 : a3.IsWhole)
  (a4 : Memref sig .tc .vmem S800x128 .bf16) (h4 : a4.IsWhole) (a5 : Memref sig .tc .vmem S256x128 .f32) (h5 : a5.IsWhole)
  (a6 : Memref sig .tc .vmem S256x128 .f32) (h6 : a6.IsWhole) (a7 : Memref sig .tc .vmem S256x128 .f32) (h7 : a7.IsWhole)
  (a8 : Memref sig .tc .vmem S256x128 .f32) (h8 : a8.IsWhole)
  (x0 : Vec F S256x128 .bf16) (x1 x2 : Vec F S800x128 .bf16) (xs0 xs1 xs2 : Vec F S256x128 .f32)

/-- A middle key block leaves, in the accumulator, the rescaled accumulator plus the block's weighted values. -/
theorem acc_B (hc0 : ¬cond0_0 i) (hc1 : ¬cond0_1 i) :
    sout0_B_0 c i a2 h2 a3 h3 a4 h4 a5 h5 a6 h6 a7 h7 a8 h8 hc0 hc1 x0 x1 x2 xs0 xs1 xs2 = k0_pay1 (k0_pay14 x0 x1 xs1 x2 xs0) := by
  unfold sout0_B_0
  rw [View.read_writes_eq_canon _ _ _ (scover0_B_0 c i a2 h2 a3 h3 a4 h4 a5 h5 a6 h6 a7 h7 a8 h8 hc0 hc1 x0 x1 x2 xs0 xs1 xs2)]
  unfold kernelRun0_B
  dsimp only
  sl_unfold_words
  rw [View.canon_unit_zero hz]
  simp only [View.readAt_eq_ld, h2.read_unread, h3.read_unread, h4.read_unread, h5.read_unread, h6.read_unread, h7.read_unread, h8.read_unread, View.ld_unit_zero (S := S256x128) hz, View.ld_unit_zero (S := S800x128) hz]

/-- A middle key block leaves the new running maximum, replicated across the lanes. -/
theorem max_B (hc0 : ¬cond0_0 i) (hc1 : ¬cond0_1 i) :
    sout0_B_1 c i a2 h2 a3 h3 a4 h4 a5 h5 a6 h6 a7 h7 a8 h8 hc0 hc1 x0 x1 x2 xs0 xs1 xs2 = k0_pay2 (k0_pay10 x0 x1 xs1) := by
  unfold sout0_B_1
  rw [View.read_writes_eq_canon _ _ _ (scover0_B_1 c i a2 h2 a3 h3 a4 h4 a5 h5 a6 h6 a7 h7 a8 h8 hc0 hc1 x0 x1 x2 xs0 xs1 xs2)]
  unfold kernelRun0_B
  dsimp only
  sl_unfold_words
  rw [View.canon_unit_zero hz]
  simp only [View.readAt_eq_ld, h2.read_unread, h3.read_unread, h4.read_unread, h5.read_unread, h6.read_unread, h7.read_unread, h8.read_unread, View.ld_unit_zero (S := S256x128) hz, View.ld_unit_zero (S := S800x128) hz]

/-- A middle key block leaves the rescaled running sum plus the block's sum of weights, replicated across the lanes. -/
theorem sum_B (hc0 : ¬cond0_0 i) (hc1 : ¬cond0_1 i) :
    sout0_B_2 c i a2 h2 a3 h3 a4 h4 a5 h5 a6 h6 a7 h7 a8 h8 hc0 hc1 x0 x1 x2 xs0 xs1 xs2 = k0_pay3 (k0_pay13 x0 x1 xs1 xs2) := by
  unfold sout0_B_2
  rw [View.read_writes_eq_canon _ _ _ (scover0_B_2 c i a2 h2 a3 h3 a4 h4 a5 h5 a6 h6 a7 h7 a8 h8 hc0 hc1 x0 x1 x2 xs0 xs1 xs2)]
  unfold kernelRun0_B
  dsimp only
  sl_unfold_words
  rw [View.canon_unit_zero hz]
  simp only [View.readAt_eq_ld, h2.read_unread, h3.read_unread, h4.read_unread, h5.read_unread, h6.read_unread, h7.read_unread, h8.read_unread, View.ld_unit_zero (S := S256x128) hz, View.ld_unit_zero (S := S800x128) hz]

/-- The last key block updates the accumulator as a middle one does. -/
theorem acc_C (hc0 : ¬cond0_0 i) (hc1 : cond0_1 i) :
    sout0_C_0 c i a2 h2 a3 h3 a4 h4 a5 h5 a6 h6 a7 h7 a8 h8 hc0 hc1 x0 x1 x2 xs0 xs1 xs2 = k0_pay1 (k0_pay14 x0 x1 xs1 x2 xs0) := by
  unfold sout0_C_0
  rw [View.read_writes_eq_canon _ _ _ (scover0_C_0 c i a2 h2 a3 h3 a4 h4 a5 h5 a6 h6 a7 h7 a8 h8 hc0 hc1 x0 x1 x2 xs0 xs1 xs2)]
  unfold kernelRun0_C
  dsimp only
  sl_unfold_words
  rw [View.canon_unit_zero hz]
  simp only [View.readAt_eq_ld, h2.read_unread, h3.read_unread, h4.read_unread, h5.read_unread, h6.read_unread, h7.read_unread, h8.read_unread, View.ld_unit_zero (S := S256x128) hz, View.ld_unit_zero (S := S800x128) hz]

/-- The last key block updates the running maximum as a middle one does. -/
theorem max_C (hc0 : ¬cond0_0 i) (hc1 : cond0_1 i) :
    sout0_C_1 c i a2 h2 a3 h3 a4 h4 a5 h5 a6 h6 a7 h7 a8 h8 hc0 hc1 x0 x1 x2 xs0 xs1 xs2 = k0_pay2 (k0_pay10 x0 x1 xs1) := by
  unfold sout0_C_1
  rw [View.read_writes_eq_canon _ _ _ (scover0_C_1 c i a2 h2 a3 h3 a4 h4 a5 h5 a6 h6 a7 h7 a8 h8 hc0 hc1 x0 x1 x2 xs0 xs1 xs2)]
  unfold kernelRun0_C
  dsimp only
  sl_unfold_words
  rw [View.canon_unit_zero hz]
  simp only [View.readAt_eq_ld, h2.read_unread, h3.read_unread, h4.read_unread, h5.read_unread, h6.read_unread, h7.read_unread, h8.read_unread, View.ld_unit_zero (S := S256x128) hz, View.ld_unit_zero (S := S800x128) hz]

/-- The last key block updates the running sum as a middle one does. -/
theorem sum_C (hc0 : ¬cond0_0 i) (hc1 : cond0_1 i) :
    sout0_C_2 c i a2 h2 a3 h3 a4 h4 a5 h5 a6 h6 a7 h7 a8 h8 hc0 hc1 x0 x1 x2 xs0 xs1 xs2 = k0_pay3 (k0_pay13 x0 x1 xs1 xs2) := by
  unfold sout0_C_2
  rw [View.read_writes_eq_canon _ _ _ (scover0_C_2 c i a2 h2 a3 h3 a4 h4 a5 h5 a6 h6 a7 h7 a8 h8 hc0 hc1 x0 x1 x2 xs0 xs1 xs2)]
  unfold kernelRun0_C
  dsimp only
  sl_unfold_words
  rw [View.canon_unit_zero hz]
  simp only [View.readAt_eq_ld, h2.read_unread, h3.read_unread, h4.read_unread, h5.read_unread, h6.read_unread, h7.read_unread, h8.read_unread, View.ld_unit_zero (S := S256x128) hz, View.ld_unit_zero (S := S800x128) hz]

/-- The last key block stores the quotient of the updated accumulator by the updated running sum. -/
theorem out_C (hc0 : ¬cond0_0 i) (hc1 : cond0_1 i) :
    out0_C_3 c i a2 h2 a3 h3 a4 h4 a5 h5 a6 h6 a7 h7 a8 h8 hc0 hc1 x0 x1 x2 xs0 xs1 xs2 = k0_pay4 (k0_pay1 (k0_pay14 x0 x1 xs1 x2 xs0)) (k0_pay3 (k0_pay13 x0 x1 xs1 xs2)) := by
  unfold out0_C_3
  rw [View.read_writes_eq_canon _ _ _ (cover0_C_3 c i a2 h2 a3 h3 a4 h4 a5 h5 a6 h6 a7 h7 a8 h8 hc0 hc1 x0 x1 x2 xs0 xs1 xs2)]
  unfold kernelRun0_C
  dsimp only
  sl_unfold_words
  rw [View.canon_unit_zero hz]
  simp only [View.readCov_unit_zero (S := S256x128) _ hz, View.readAt_eq_ld, h2.read_unread, h3.read_unread, h4.read_unread, h5.read_unread, h6.read_unread, h7.read_unread, h8.read_unread, View.ld_unit_zero (S := S256x128) hz, View.ld_unit_zero (S := S800x128) hz]

/-- The first key block resets the accumulator to zero and then updates it: the update runs on the reset values. -/
theorem acc_A (hc0 : cond0_0 i) (hc1 : ¬cond0_1 i) :
    sout0_A_0 c i a2 h2 a3 h3 a4 h4 a5 h5 a6 h6 a7 h7 a8 h8 hc0 hc1 x0 x1 x2 = k0_pay1 (k0_pay14 x0 x1 k0_pay5 x2 k0_pay7) := by
  unfold sout0_A_0
  rw [View.read_writes_eq_canon _ _ _ (scover0_A_0 c i a2 h2 a3 h3 a4 h4 a5 h5 a6 h6 a7 h7 a8 h8 hc0 hc1 x0 x1 x2)]
  unfold kernelRun0_A
  dsimp only
  sl_unfold_words
  rw [View.canon_cons_unit_zero (S := S256x128) hz]
  simp only [View.readCov_unit_zero (S := S256x128) _ hz, View.readAt_eq_ld, h2.read_unread, h3.read_unread, h4.read_unread, h5.read_unread, h6.read_unread, h7.read_unread, h8.read_unread, View.ld_unit_zero (S := S256x128) hz, View.ld_unit_zero (S := S800x128) hz]

/-- The first key block resets the running maximum to -∞ and then updates it. -/
theorem max_A (hc0 : cond0_0 i) (hc1 : ¬cond0_1 i) :
    sout0_A_1 c i a2 h2 a3 h3 a4 h4 a5 h5 a6 h6 a7 h7 a8 h8 hc0 hc1 x0 x1 x2 = k0_pay2 (k0_pay10 x0 x1 k0_pay5) := by
  unfold sout0_A_1
  rw [View.read_writes_eq_canon _ _ _ (scover0_A_1 c i a2 h2 a3 h3 a4 h4 a5 h5 a6 h6 a7 h7 a8 h8 hc0 hc1 x0 x1 x2)]
  unfold kernelRun0_A
  dsimp only
  sl_unfold_words
  rw [View.canon_cons_unit_zero (S := S256x128) hz]
  simp only [View.readCov_unit_zero (S := S256x128) _ hz, View.readAt_eq_ld, h2.read_unread, h3.read_unread, h4.read_unread, h5.read_unread, h6.read_unread, h7.read_unread, h8.read_unread, View.ld_unit_zero (S := S256x128) hz, View.ld_unit_zero (S := S800x128) hz]

/-- The first key block resets the running sum to zero and then updates it. -/
theorem sum_A (hc0 : cond0_0 i) (hc1 : ¬cond0_1 i) :
    sout0_A_2 c i a2 h2 a3 h3 a4 h4 a5 h5 a6 h6 a7 h7 a8 h8 hc0 hc1 x0 x1 x2 = k0_pay3 (k0_pay13 x0 x1 k0_pay5 k0_pay6) := by
  unfold sout0_A_2
  rw [View.read_writes_eq_canon _ _ _ (scover0_A_2 c i a2 h2 a3 h3 a4 h4 a5 h5 a6 h6 a7 h7 a8 h8 hc0 hc1 x0 x1 x2)]
  unfold kernelRun0_A
  dsimp only
  sl_unfold_words
  rw [View.canon_cons_unit_zero (S := S256x128) hz]
  simp only [View.readCov_unit_zero (S := S256x128) _ hz, View.readAt_eq_ld, h2.read_unread, h3.read_unread, h4.read_unread, h5.read_unread, h6.read_unread, h7.read_unread, h8.read_unread, View.ld_unit_zero (S := S256x128) hz, View.ld_unit_zero (S := S800x128) hz]

end Cert.KernelIdeal.Online

end
-- ==== Proof.Payloads.lean ====
/-
  The body's arithmetic read at an index, on extended reals. For query row `p` of the block, key row `b` of the block
  and value column `q`:

    scaled logit    s p b   = (∑ e, x p e * k b e) * c
    new maximum     m' p    = max (m p) (max over b of s p b, from -∞)
    rescale factor  α p     = exp (m p - m' p)
    weight          w p b   = exp (s p b - m' p)
    new sum         l' p    = α p * l p + ∑ b, w p b
    new accumulator a' p q  = a p q * α p + ∑ b, w p b * v b q
    final quotient  o p q   = a' p q / l' p

  The running maximum and sum are kept replicated across the 128 lanes of a row and read back from lane 0.
-/
import proofs.«150222_g335007450007_cont_8to1_b_1674_5_alg».proof.Proof.Gen.KernelIdeal.Skeleton
import Idealize.ShloMosaic.Lib.Pipeline.Value
import Idealize.ShloMosaic.Lib.ValueIdx
import Idealize.ShloMosaic.PureOps.Ideal.Laws
import Idealize.ShloMosaic.PureOps.IdealRules

noncomputable section

open scoped BigOperators

namespace Cert.KernelIdeal.Online

open Cert.KernelIdeal Cert.KernelIdeal.Gen
open Idealize.ShloMosaic Idealize.ShloMosaic.ValueIdx

/-! ## Layout operations at an index -/

/-- Lane 0 of a row, sliced out as a column. -/
theorem slice_col0 (v : S256x128.Idx → EReal) (h : S256x128.Slices ![0, 0] S256x1) (p : Fin 256) :
    extractStridedSlice S256x1 ![0, 0] v h (ix2 p 0) = v (ix2 p 0) :=
  extractStridedSlice_apply _ v h (ix2 p 0) (ix2 p 0) (fun a => by
    match a with
    | ⟨0, _⟩ => exact (Nat.zero_add _).symm
    | ⟨1, _⟩ => exact (Nat.zero_add _).symm)

/-- A vector of 256 row values recast as a column. -/
theorem cast_col (v : S256.Idx → EReal) (h : S256.ShapeCasts S256x1) (p : Fin 256) :
    shapeCast S256x1 v h (ix2 p 0) = v (ix1 p) :=
  shapeCast_apply v h (ix2 p 0) (ix1 p) (by
    rw [Shape.rowMajor_val_one, Shape.rowMajor_val_two]
    show p.val = p.val * 1 + 0
    omega)

/-- A column broadcast along the rows' lanes. -/
theorem bcast_col128 (v : S256x1.Idx → EReal) (h : S256x1.Broadcasts S256x128) (p : Fin 256) (q : Fin 128) :
    broadcastTo S256x128 v h (ix2 p q) = v (ix2 p 0) :=
  broadcastTo_apply v h (ix2 p q) (ix2 p 0) (fun a => by
    match a with
    | ⟨0, _⟩ => exact (if_neg (show ¬(256 : ℕ) = 1 by decide)).symm
    | ⟨1, _⟩ => exact (if_pos (rfl : (1 : ℕ) = 1)).symm)

/-- A column broadcast along the 800 key rows of a block. -/
theorem bcast_col800 (v : S256x1.Idx → EReal) (h : S256x1.Broadcasts S256x800) (p : Fin 256) (b : Fin 800) :
    broadcastTo S256x800 v h (ix2 p b) = v (ix2 p 0) :=
  broadcastTo_apply v h (ix2 p b) (ix2 p 0) (fun a => by
    match a with
    | ⟨0, _⟩ => exact (if_neg (show ¬(256 : ℕ) = 1 by decide)).symm
    | ⟨1, _⟩ => exact (if_pos (rfl : (1 : ℕ) = 1)).symm)

/-- Every index of a column is `(p, 0)`. -/
theorem col_idx (y : S256x1.Idx) : y = ix2 (y 0) 0 := by
  rw [eq_ix2 y]; congr 1; exact Subsingleton.elim (α := Fin 1) _ _

/-! ## The literals -/

theorem neg_inf_word : Ideal.ofBits .f32 0xFF800000#32 = (⊥ : EReal) := by simp [Ideal.ofBits, Ideal.ieee]

/-- The named logit scale is the rational the certificate's table gives it. -/
theorem inv_tau : Named.named (F := Ideal) Cert.KernelIdeal.κ "inv_tau" (φ := .f32) 0x42C80000#32 = ((536870912 / 5368709 : ℝ) : EReal) :=
  IdealRules.named_const.ideal_named_scalar _ _ _ _ rfl

/-! ## The two matrix products as sums -/

section Dots
variable [Facts]

theorem lhs_qk_0 (i : S256x800.Idx) (q : dot_S256x128_S800x128_S256x800_1_1_0_0_n_n.contr.Idx) :
    (dot_S256x128_S800x128_S256x800_1_1_0_0_n_n.lhsIdx i q 0).val = (i 0).val := by
  unfold DotDims.lhsIdx
  rw [dif_neg (show ¬(0 : Fin S256x128.rank) ∈ dot_S256x128_S800x128_S256x800_1_1_0_0_n_n.lhsBatch by decide), dif_pos (show (0 : Fin S256x128.rank) ∈ dot_S256x128_S800x128_S256x800_1_1_0_0_n_n.lhsNonContracting by decide)]
  rfl
theorem lhs_qk_1 (i : S256x800.Idx) (q : dot_S256x128_S800x128_S256x800_1_1_0_0_n_n.contr.Idx) :
    (dot_S256x128_S800x128_S256x800_1_1_0_0_n_n.lhsIdx i q 1).val = (q ⟨0, by decide⟩).val :=
  dot_S256x128_S800x128_S256x800_1_1_0_0_n_n.lhsIdx_val_of_single rfl i q
theorem rhs_qk_0 (i : S256x800.Idx) (q : dot_S256x128_S800x128_S256x800_1_1_0_0_n_n.contr.Idx) :
    (dot_S256x128_S800x128_S256x800_1_1_0_0_n_n.rhsIdx i q 0).val = (i 1).val := by
  unfold DotDims.rhsIdx
  rw [dif_neg (show ¬(0 : Fin S800x128.rank) ∈ dot_S256x128_S800x128_S256x800_1_1_0_0_n_n.rhsBatch by decide), dif_pos (show (0 : Fin S800x128.rank) ∈ dot_S256x128_S800x128_S256x800_1_1_0_0_n_n.rhsNonContracting by decide)]
  rfl
theorem rhs_qk_1 (i : S256x800.Idx) (q : dot_S256x128_S800x128_S256x800_1_1_0_0_n_n.contr.Idx) :
    (dot_S256x128_S800x128_S256x800_1_1_0_0_n_n.rhsIdx i q 1).val = (q ⟨0, by decide⟩).val :=
  dot_S256x128_S800x128_S256x800_1_1_0_0_n_n.rhsIdx_val_of_single rfl i q

/-- The query block against the key block, both contracted over their 128 lanes. -/
theorem qk_apply (x : FVec Ideal S256x128 .bf16) (k : FVec Ideal S800x128 .bf16) (p : Fin 256) (b : Fin 800) :
    matmul dot_S256x128_S800x128_S256x800_1_1_0_0_n_n none x k (constant S256x800 .f32 0x00000000#32) (ix2 p b)
      = ∑ e : Fin 128, x (ix2 p e) * k (ix2 b e) := by
  simp only [matmul]
  rw [Ideal.matmul_constant_zero_apply, ← Equiv.sum_comp (contrEquiv1 dot_S256x128_S800x128_S256x800_1_1_0_0_n_n 128 rfl rfl).symm]
  refine Finset.sum_congr rfl fun e _ => ?_
  have hk := contrEquiv1_symm_val dot_S256x128_S800x128_S256x800_1_1_0_0_n_n 128 rfl rfl e
  have el : dot_S256x128_S800x128_S256x800_1_1_0_0_n_n.lhsIdx (ix2 p b) ((contrEquiv1 dot_S256x128_S800x128_S256x800_1_1_0_0_n_n 128 rfl rfl).symm e) = ix2 p e := funext fun a => Fin.ext (by
    match a with
    | ⟨0, _⟩ => exact lhs_qk_0 _ _
    | ⟨1, _⟩ => exact (lhs_qk_1 _ _).trans hk)
  have er : dot_S256x128_S800x128_S256x800_1_1_0_0_n_n.rhsIdx (ix2 p b) ((contrEquiv1 dot_S256x128_S800x128_S256x800_1_1_0_0_n_n 128 rfl rfl).symm e) = ix2 b e := funext fun a => Fin.ext (by
    match a with
    | ⟨0, _⟩ => exact rhs_qk_0 _ _
    | ⟨1, _⟩ => exact (rhs_qk_1 _ _).trans hk)
  rw [el, er]

theorem lhs_pv_0 (i : S256x128.Idx) (q : dot_S256x800_S800x128_S256x128_1_0_0_1_n_n.contr.Idx) :
    (dot_S256x800_S800x128_S256x128_1_0_0_1_n_n.lhsIdx i q 0).val = (i 0).val := by
  unfold DotDims.lhsIdx
  rw [dif_neg (show ¬(0 : Fin S256x800.rank) ∈ dot_S256x800_S800x128_S256x128_1_0_0_1_n_n.lhsBatch by decide), dif_pos (show (0 : Fin S256x800.rank) ∈ dot_S256x800_S800x128_S256x128_1_0_0_1_n_n.lhsNonContracting by decide)]
  rfl
theorem lhs_pv_1 (i : S256x128.Idx) (q : dot_S256x800_S800x128_S256x128_1_0_0_1_n_n.contr.Idx) :
    (dot_S256x800_S800x128_S256x128_1_0_0_1_n_n.lhsIdx i q 1).val = (q ⟨0, by decide⟩).val :=
  dot_S256x800_S800x128_S256x128_1_0_0_1_n_n.lhsIdx_val_of_single rfl i q
theorem rhs_pv_0 (i : S256x128.Idx) (q : dot_S256x800_S800x128_S256x128_1_0_0_1_n_n.contr.Idx) :
    (dot_S256x800_S800x128_S256x128_1_0_0_1_n_n.rhsIdx i q 0).val = (q ⟨0, by decide⟩).val :=
  dot_S256x800_S800x128_S256x128_1_0_0_1_n_n.rhsIdx_val_of_single rfl i q
theorem rhs_pv_1 (i : S256x128.Idx) (q : dot_S256x800_S800x128_S256x128_1_0_0_1_n_n.contr.Idx) :
    (dot_S256x800_S800x128_S256x128_1_0_0_1_n_n.rhsIdx i q 1).val = (i 1).val := by
  unfold DotDims.rhsIdx
  rw [dif_neg (show ¬(1 : Fin S800x128.rank) ∈ dot_S256x800_S800x128_S256x128_1_0_0_1_n_n.rhsBatch by decide), dif_pos (show (1 : Fin S800x128.rank) ∈ dot_S256x800_S800x128_S256x128_1_0_0_1_n_n.rhsNonContracting by decide)]
  rfl

/-- The weights against the value block, contracted over the block's 800 key rows. -/
theorem pv_apply (w : FVec Ideal S256x800 .bf16) (v : FVec Ideal S800x128 .bf16) (p : Fin 256) (q : Fin 128) :
    matmul dot_S256x800_S800x128_S256x128_1_0_0_1_n_n none w v (constant S256x128 .f32 0x00000000#32) (ix2 p q)
      = ∑ b : Fin 800, w (ix2 p b) * v (ix2 b q) := by
  simp only [matmul]
  rw [Ideal.matmul_constant_zero_apply, ← Equiv.sum_comp (contrEquiv1 dot_S256x800_S800x128_S256x128_1_0_0_1_n_n 800 rfl rfl).symm]
  refine Finset.sum_congr rfl fun e _ => ?_
  have hk := contrEquiv1_symm_val dot_S256x800_S800x128_S256x128_1_0_0_1_n_n 800 rfl rfl e
  have el : dot_S256x800_S800x128_S256x128_1_0_0_1_n_n.lhsIdx (ix2 p q) ((contrEquiv1 dot_S256x800_S800x128_S256x128_1_0_0_1_n_n 800 rfl rfl).symm e) = ix2 p e := funext fun a => Fin.ext (by
    match a with
    | ⟨0, _⟩ => exact lhs_pv_0 _ _
    | ⟨1, _⟩ => exact (lhs_pv_1 _ _).trans hk)
  have er : dot_S256x800_S800x128_S256x128_1_0_0_1_n_n.rhsIdx (ix2 p q) ((contrEquiv1 dot_S256x800_S800x128_S256x128_1_0_0_1_n_n 800 rfl rfl).symm e) = ix2 e q := funext fun a => Fin.ext (by
    match a with
    | ⟨0, _⟩ => exact (rhs_pv_0 _ _).trans hk
    | ⟨1, _⟩ => exact rhs_pv_1 _ _)
  rw [el, er]

end Dots

/-! ## The two lane reductions of a block of logits or weights -/

/-- The key row `b` inserted into the reduced index `p` is `(p, b)`. -/
theorem lift_row (h : S256x800.Reduces [1] S256) (p : Fin 256) (b : Fin 800) : h.lift (ix1 p) b = ix2 p b :=
  funext fun a => Fin.ext (by match a with | ⟨0, _⟩ => rfl | ⟨1, _⟩ => rfl)

/-- A row's maximum over the block's 800 key rows, folded from `-∞`. -/
theorem lane_max (src : FVec Ideal S256x800 .f32) (h : S256x800.Reduces [1] S256) (hφ : FKind.Formats .f32)
    (hacc : (0xFF800000#32 : BitVec 32) = 0xFF800000#32) (p : Fin 256) :
    multiReduction .maximumf [1] S256 src 0xFF800000#32 h hφ hacc (ix1 p)
      = (Finset.univ : Finset (Fin 800)).fold max (⊥ : EReal) fun b => src (ix2 p b) := by
  refine (Ideal.multiReduction_maximumf_single src 0xFF800000#32 h hφ hacc (ix1 p)).trans ?_
  show (Finset.univ : Finset (Fin 800)).fold max (Ideal.ofBits .f32 0xFF800000#32) (fun b => src (h.lift (ix1 p) b)) = _
  rw [neg_inf_word]
  exact congrArg (fun f : Fin 800 → EReal => (Finset.univ : Finset (Fin 800)).fold max ⊥ f)
    (funext fun b => congrArg src (lift_row h p b))

/-- A row's sum over the block's 800 key rows. -/
theorem lane_sum (src : FVec Ideal S256x800 .f32) (h : S256x800.Reduces [1] S256) (hφ : FKind.Formats .f32)
    (hacc : (0x00000000#32 : BitVec 32) = 0x00000000#32) (p : Fin 256) :
    multiReduction .add [1] S256 src 0x00000000#32 h hφ hacc (ix1 p) = ∑ b : Fin 800, src (ix2 p b) := by
  refine (Ideal.multiReduction_add_single src 0x00000000#32 h hφ hacc (ix1 p)).trans ?_
  exact Finset.sum_congr rfl fun b _ => congrArg src (lift_row h p b)

/-! ## The payloads -/

variable (x : Vec Ideal S256x128 .bf16) (k v : Vec Ideal S800x128 .bf16) (m l a : Vec Ideal S256x128 .f32)

/-- The scaled logit. -/
theorem logit_apply (p : Fin 256) (b : Fin 800) :
    k0_pay8 x k (ix2 p b) = (∑ e : Fin 128, x (ix2 p e) * k (ix2 b e)) * ((536870912 / 5368709 : ℝ) : EReal) := by
  unfold k0_pay8
  show matmul _ none (shapeCast S256x128 x _) (shapeCast S800x128 k _) _ (ix2 p b) * Named.named (F := Ideal) κ "inv_tau" (φ := .f32) 0x42C80000#32 = _
  rw [shapeCast_self, shapeCast_self, qk_apply, inv_tau]

/-- The previous maximum, read from lane 0. -/
theorem prev_apply (p : Fin 256) : k0_pay9 m (ix2 p 0) = m (ix2 p 0) := by
  unfold k0_pay9; exact slice_col0 _ _ p

/-- The new running maximum. -/
theorem newmax_apply (p : Fin 256) :
    k0_pay10 x k m (ix2 p 0) = max (m (ix2 p 0)) ((Finset.univ : Finset (Fin 800)).fold max ⊥ fun b => k0_pay8 x k (ix2 p b)) := by
  unfold k0_pay10
  show max (k0_pay9 m (ix2 p 0)) (shapeCast S256x1 (multiReduction .maximumf [1] S256 (k0_pay8 x k) 0xFF800000#32 _ _ _) _ (ix2 p 0)) = _
  rw [prev_apply, cast_col]
  exact congrArg (max _) (lane_max _ _ _ _ p)

/-- The factor that rescales the previous sums to the new maximum. -/
theorem alpha_apply (p : Fin 256) :
    k0_pay11 x k m (ix2 p 0) = Ideal.exp (m (ix2 p 0) - k0_pay10 x k m (ix2 p 0)) := by
  unfold k0_pay11
  show Ideal.exp (k0_pay9 m (ix2 p 0) - k0_pay10 x k m (ix2 p 0)) = _
  rw [prev_apply]

/-- The weight of key row `b` for query row `p`. -/
theorem weight_apply (p : Fin 256) (b : Fin 800) :
    k0_pay12 x k m (ix2 p b) = Ideal.exp (k0_pay8 x k (ix2 p b) - k0_pay10 x k m (ix2 p 0)) := by
  unfold k0_pay12
  show Ideal.exp (k0_pay8 x k (ix2 p b) - broadcastTo S256x800 (k0_pay10 x k m) _ (ix2 p b)) = _
  rw [bcast_col800]

/-- The new running sum of weights. -/
theorem newsum_apply (p : Fin 256) :
    k0_pay13 x k m l (ix2 p 0) = k0_pay11 x k m (ix2 p 0) * l (ix2 p 0) + ∑ b : Fin 800, k0_pay12 x k m (ix2 p b) := by
  unfold k0_pay13
  show k0_pay11 x k m (ix2 p 0) * extractStridedSlice S256x1 ![0, 0] l _ (ix2 p 0)
      + shapeCast S256x1 (multiReduction .add [1] S256 (k0_pay12 x k m) 0x00000000#32 _ _ _) _ (ix2 p 0) = _
  rw [slice_col0, cast_col]
  exact congrArg (_ + ·) (lane_sum _ _ _ _ p)

/-- The new accumulator. -/
theorem newacc_apply (p : Fin 256) (q : Fin 128) :
    k0_pay14 x k m v a (ix2 p q) = a (ix2 p q) * k0_pay11 x k m (ix2 p 0) + ∑ b : Fin 800, k0_pay12 x k m (ix2 p b) * v (ix2 b q) := by
  unfold k0_pay14
  show a (ix2 p q) * broadcastTo S256x128 (k0_pay11 x k m) _ (ix2 p q)
      + matmul _ none (truncf .bf16 (k0_pay12 x k m) _) (shapeCast S800x128 v _) _ (ix2 p q) = _
  rw [bcast_col128, shapeCast_self, pv_apply]
  rfl

/-- The stored accumulator is the accumulator. -/
theorem store_acc (u : FVec Ideal S256x128 .f32) : k0_pay1 u = u := by
  unfold k0_pay1; exact shapeCast_self _ _

/-- A column stored replicated across the lanes. -/
theorem store_col (u : FVec Ideal S256x1 .f32) (p : Fin 256) (q : Fin 128) : k0_pay2 u (ix2 p q) = u (ix2 p 0) := by
  unfold k0_pay2
  show shapeCast S256x128 (broadcastTo S256x128 (shapeCast S256x1 u _) _) _ (ix2 p q) = _
  rw [shapeCast_self, bcast_col128, shapeCast_self]

theorem store_col' (u : FVec Ideal S256x1 .f32) (p : Fin 256) (q : Fin 128) : k0_pay3 u (ix2 p q) = u (ix2 p 0) := by
  unfold k0_pay3
  show shapeCast S256x128 (broadcastTo S256x128 (shapeCast S256x1 u _) _) _ (ix2 p q) = _
  rw [shapeCast_self, bcast_col128, shapeCast_self]

/-- The final quotient: the accumulator by the running sum read from lane 0. -/
theorem quot_apply (p : Fin 256) (q : Fin 128) : k0_pay4 a l (ix2 p q) = Ideal.div (a (ix2 p q)) (l (ix2 p 0)) := by
  unfold k0_pay4
  show Ideal.div (a (ix2 p q)) (broadcastTo S256x128 (extractStridedSlice S256x1 ![0, 0] l _) _ (ix2 p q)) = _
  rw [bcast_col128, slice_col0]

/-- The reset values: `-∞` for the maximum, `0` for the sum and the accumulator. -/
theorem reset_max (y : S256x128.Idx) : (k0_pay5 (F := Ideal)) y = (⊥ : EReal) := by
  unfold k0_pay5
  show shapeCast S256x128 (broadcast S256x128 (Ideal.ofBits .f32 0xFF800000#32)) _ y = _
  rw [shapeCast_self, neg_inf_word]; rfl
theorem reset_sum (y : S256x128.Idx) : (k0_pay6 (F := Ideal)) y = (0 : EReal) := by
  unfold k0_pay6
  show shapeCast S256x128 (broadcast S256x128 (Ideal.ofBits .f32 0x00000000#32)) _ y = _
  rw [shapeCast_self, Ideal.ofBits_zero_f32]; rfl
theorem reset_acc (y : S256x128.Idx) : (k0_pay7 (F := Ideal)) y = (0 : EReal) := by
  unfold k0_pay7
  show shapeCast S256x128 (broadcast S256x128 (Ideal.ofBits .f32 0x00000000#32)) _ y = _
  rw [shapeCast_self, Ideal.ofBits_zero_f32]; rfl

end Cert.KernelIdeal.Online

end
-- ==== Proof.Spec.lean ====
/-
  The specification both programs are compared with: softmax attention over a memory bank.

  For a query row `r` and a key row `n` the logit is `s r n = (∑ k, x r k * K n k) * c` with `c = 536870912/5368709`,
  the reciprocal of the temperature `5368709/2^29` the reference divides by. The result at `(r, q)` is

      (∑ n, exp (s r n) * V n q) / (∑ n, exp (s r n)).

  Softmax does not change when every logit of a row is shifted by the same real `M`: numerator and denominator both pick
  up the factor `exp (-M)`. So neither program's running or global maximum has to be identified; it is enough that it
  is a real number. The sums over the 100000 key rows are also cut into 125 blocks of 800 rows, the order the
  blocked program meets them in.
-/
import Idealize.ShloMosaic.PureOps.Ideal
import Idealize.ShloMosaic.Lib.ValueIdx

noncomputable section

open scoped BigOperators

namespace Cert.Attn

open Idealize.ShloMosaic Idealize.ShloMosaic.ValueIdx

/-- The query array's and the result's shape. -/
abbrev SQ : Shape := ⟨2, ![1024, 128]⟩
/-- The key and value arrays' shape. -/
abbrev SK : Shape := ⟨2, ![100000, 128]⟩

/-- The logit scale: the reciprocal of the temperature `5368709 / 2^29`. -/
def scale : ℝ := 536870912 / 5368709

/-- The logit of query row `r` against key row `n`. -/
def logit (x : SQ.Idx → ℝ) (K : SK.Idx → ℝ) (r : Fin 1024) (n : Fin 100000) : ℝ :=
  (∑ k : Fin 128, x (ix2 r k) * K (ix2 n k)) * scale

/-- Softmax attention at `(r, q)`, the logits unshifted. -/
def attn (x : SQ.Idx → ℝ) (K V : SK.Idx → ℝ) (r : Fin 1024) (q : Fin 128) : ℝ :=
  (∑ n : Fin 100000, Real.exp (logit x K r n) * V (ix2 n q)) / (∑ n : Fin 100000, Real.exp (logit x K r n))

/-- The result array as a function of the three argument arrays, through their real parts. -/
def G (x : SQ.Idx → EReal) (K V : SK.Idx → EReal) : SQ.Idx → EReal :=
  fun i => ((attn (fun a => (x a).toReal) (fun a => (K a).toReal) (fun a => (V a).toReal) (i 0) (i 1) : ℝ) : EReal)

/-! ## Shift invariance -/

/-- The quotient of the shifted sums is the quotient of the unshifted ones. -/
theorem shifted_quot {ι : Type*} [Fintype ι] [Nonempty ι] (s v : ι → ℝ) (M : ℝ) :
    (∑ n, Real.exp (s n - M) * v n) / (∑ n, Real.exp (s n - M)) = (∑ n, Real.exp (s n) * v n) / (∑ n, Real.exp (s n)) := by
  have hM : Real.exp (-M) ≠ 0 := (Real.exp_pos _).ne'
  have e1 : ∀ n, Real.exp (s n - M) = Real.exp (-M) * Real.exp (s n) := fun n => by
    rw [← Real.exp_add]; congr 1; ring
  simp only [e1, mul_assoc, ← Finset.mul_sum]
  exact mul_div_mul_left _ _ hM

/-- The sum of exponentials over a nonempty index set is positive. -/
theorem sum_exp_pos {ι : Type*} [Fintype ι] [Nonempty ι] (s : ι → ℝ) : 0 < ∑ n, Real.exp (s n) :=
  Finset.sum_pos (fun n _ => Real.exp_pos _) Finset.univ_nonempty

/-- A weighted sum with the weights normalised one by one is the quotient of the sums. -/
theorem sum_normalised {ι : Type*} [Fintype ι] (e v : ι → ℝ) (S : ℝ) :
    ∑ n, e n / S * v n = (∑ n, e n * v n) / S := by
  rw [Finset.sum_div]; exact Finset.sum_congr rfl fun n _ => by ring

/-! ## The key rows in blocks of 800 -/

/-- Key row `b` of block `j`. -/
def keyRow (j : Fin 125) (b : Fin 800) : Fin 100000 := ⟨j.val * 800 + b.val, by omega⟩

/-- The sum of `f` over the key rows of the first `k` blocks. -/
def blockSum (f : Fin 100000 → ℝ) (k : ℕ) : ℝ :=
  ∑ j : Fin 125, if j.val < k then ∑ b : Fin 800, f (keyRow j b) else 0

theorem blockSum_zero (f : Fin 100000 → ℝ) : blockSum f 0 = 0 := by
  unfold blockSum; exact Finset.sum_eq_zero fun j _ => if_neg (Nat.not_lt_zero _)

/-- One more block. -/
theorem blockSum_succ (f : Fin 100000 → ℝ) (j : Fin 125) :
    blockSum f (j.val + 1) = blockSum f j.val + ∑ b : Fin 800, f (keyRow j b) := by
  unfold blockSum
  have h : ∀ j' : Fin 125, (if j'.val < j.val + 1 then ∑ b : Fin 800, f (keyRow j' b) else 0)
      = (if j'.val < j.val then ∑ b : Fin 800, f (keyRow j' b) else 0) + (if j' = j then ∑ b : Fin 800, f (keyRow j' b) else 0) := by
    intro j'
    by_cases h1 : j'.val < j.val
    · rw [if_pos (by omega), if_pos h1, if_neg (fun e => by rw [e] at h1; omega), add_zero]
    · by_cases h2 : j' = j
      · subst h2; rw [if_pos (by omega), if_neg h1, if_pos rfl, zero_add]
      · have : ¬ j'.val < j.val + 1 := fun h3 => h2 (Fin.ext (by omega))
        rw [if_neg this, if_neg h1, if_neg h2, add_zero]
  rw [Finset.sum_congr rfl fun j' _ => h j', Finset.sum_add_distrib, Finset.sum_ite_eq' Finset.univ j]
  simp

/-- A common factor comes out of a block sum. -/
theorem blockSum_mul_left (a : ℝ) (f : Fin 100000 → ℝ) (k : ℕ) : blockSum (fun n => a * f n) k = a * blockSum f k := by
  unfold blockSum
  rw [Finset.mul_sum]
  exact Finset.sum_congr rfl fun j _ => by
    by_cases h : j.val < k
    · rw [if_pos h, if_pos h, Finset.mul_sum]
    · rw [if_neg h, if_neg h, mul_zero]

/-- All 125 blocks are all the key rows. -/
theorem blockSum_all (f : Fin 100000 → ℝ) : blockSum f 125 = ∑ n : Fin 100000, f n := by
  unfold blockSum
  rw [Finset.sum_congr rfl fun (j : Fin 125) _ => if_pos j.isLt, ← Finset.sum_product']
  refine Finset.sum_bij' (fun p _ => keyRow p.1 p.2)
    (fun n _ => (⟨n.val / 800, by have := n.isLt; omega⟩, ⟨n.val % 800, Nat.mod_lt _ (by norm_num)⟩)) ?_ ?_ ?_ ?_ ?_
  · intro _ _; exact Finset.mem_univ _
  · intro _ _; exact Finset.mem_univ _
  · rintro ⟨j, b⟩ _
    refine Prod.ext (Fin.ext ?_) (Fin.ext ?_)
    · show (j.val * 800 + b.val) / 800 = j.val
      have := b.isLt; omega
    · show (j.val * 800 + b.val) % 800 = b.val
      have := b.isLt; omega
  · intro n _
    refine Fin.ext ?_
    show n.val / 800 * 800 + n.val % 800 = n.val
    omega
  · intro _ _; rfl

/-- Changing the shift of every exponential rescales a block sum: the step that carries the running sums of an
    online softmax from the shift `M` to the shift `M'`. -/
theorem blockSum_reshift (s w : Fin 100000 → ℝ) (M M' : ℝ) (k : ℕ) :
    blockSum (fun n => Real.exp (s n - M') * w n) k = Real.exp (M - M') * blockSum (fun n => Real.exp (s n - M) * w n) k := by
  rw [← blockSum_mul_left]
  congr 1; funext n
  rw [← mul_assoc, ← Real.exp_add]; congr 2; ring

end Cert.Attn

end
-- ==== Proof.Reals.lean ====
/-
  Extended reals that are real numbers: the few facts that let a computation on finite inputs be carried out in ℝ.
  A finite sum of real numbers is the real sum; a quotient by a nonzero real is the real quotient; the exponential of
  `-∞ - r` is `0`; and the maximum of a nonempty finite family of real numbers, folded from a start that is not `+∞`,
  is a real number.
-/
import Idealize.ShloMosaic.PureOps.Ideal
import Idealize.ShloMosaic.PureOps.Ideal.Laws

noncomputable section

open scoped BigOperators

namespace Cert.Attn

open Idealize.ShloMosaic

/-- A finite sum of real numbers, taken in the extended reals, is the real sum. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The exact quotient of two real numbers, the divisor nonzero, is the real quotient. -/
theorem div_coe_coe (a : ℝ) {b : ℝ} (hb : b ≠ 0) : Ideal.div (a : EReal) (b : EReal) = ((a / b : ℝ) : EReal) := by
  rw [Ideal.div_coe hb, ← EReal.coe_mul]; congr 1; ring

/-- `exp (-∞ - r) = 0`. -/
theorem exp_bot_sub_coe (r : ℝ) : Ideal.exp ((⊥ : EReal) - (r : EReal)) = 0 := by
  rw [EReal.bot_sub]; rfl

/-- `exp` of a difference of real numbers. -/
theorem exp_coe_sub_coe (a b : ℝ) : Ideal.exp ((a : EReal) - (b : EReal)) = ((Real.exp (a - b) : ℝ) : EReal) := by
  rw [← EReal.coe_sub]; rfl

/-- A maximum folded over real numbers from a start below `+∞` stays below `+∞`. -/
theorem fold_max_ne_top {ι : Type*} (s : Finset ι) (g : ι → ℝ) (b : EReal) (hb : b ≠ ⊤) :
    s.fold max b (fun k => (g k : EReal)) ≠ ⊤ := by
  classical
  induction s using Finset.induction_on with
  | empty => simpa using hb
  | insert a s ha ih =>
    rw [Finset.fold_insert ha]
    intro h
    rcases max_choice ((g a : ℝ) : EReal) (s.fold max b fun k => (g k : EReal)) with h' | h'
    · rw [h'] at h; exact EReal.coe_ne_top _ h
    · rw [h'] at h; exact ih h

/-- Over a nonempty family it is a real number. -/
theorem fold_max_real {ι : Type*} (s : Finset ι) (hs : s.Nonempty) (g : ι → ℝ) (b : EReal) (hb : b ≠ ⊤) :
    ∃ r : ℝ, s.fold max b (fun k => (g k : EReal)) = (r : EReal) := by
  obtain ⟨a, ha⟩ := hs
  have h1 := fold_max_ne_top s g b hb
  have h2 : s.fold max b (fun k => (g k : EReal)) ≠ ⊥ := by
    intro h
    have hle : ((g a : ℝ) : EReal) ≤ s.fold max b (fun k => (g k : EReal)) :=
      (Finset.le_fold_max _).mpr (Or.inr ⟨a, ha, le_rfl⟩)
    rw [h, le_bot_iff] at hle
    exact EReal.coe_ne_bot _ hle
  exact ⟨_, (EReal.coe_toReal h1 h2).symm⟩

/-- The maximum of `-∞` or a real number with a real number is a real number. -/
theorem max_real_of_bot_or_real {e : EReal} (he : e = ⊥ ∨ ∃ r : ℝ, e = r) (r : ℝ) : ∃ r' : ℝ, max e (r : EReal) = (r' : EReal) := by
  rcases he with rfl | ⟨r0, rfl⟩
  · exact ⟨r, max_eq_right bot_le⟩
  · rcases le_total r0 r with h | h
    · exact ⟨r, max_eq_right (EReal.coe_le_coe_iff.mpr h)⟩
    · exact ⟨r0, max_eq_left (EReal.coe_le_coe_iff.mpr h)⟩

end Cert.Attn

end
-- ==== Proof.Step.lean ====
/-
  One key block of the online softmax, on real numbers. The three input blocks are real; the running sum and the
  accumulator are real (zero right after a reset); the running maximum is `-∞` (right after a reset) or a real number.
  Then the new maximum is a real number `M'`, and with the rescale factor `α` — `0` after a reset, since
  `exp (-∞ - M') = 0`, and `exp (M - M')` otherwise —

      new sum          = α * L + ∑ b, exp (s b - M')
      new accumulator  = A * α + ∑ b, exp (s b - M') * v b

  where `s b` is the scaled logit of the row against key row `b` of the block.
-/
import proofs.«150222_g335007450007_cont_8to1_b_1674_5_alg».proof.Proof.Payloads
import proofs.«150222_g335007450007_cont_8to1_b_1674_5_alg».proof.Proof.Spec
import proofs.«150222_g335007450007_cont_8to1_b_1674_5_alg».proof.Proof.Reals

noncomputable section

open scoped BigOperators

namespace Cert.KernelIdeal.Online

open Cert.KernelIdeal Cert.KernelIdeal.Gen Cert.Attn
open Idealize.ShloMosaic Idealize.ShloMosaic.ValueIdx

/-- The scaled logit of query row `p` against key row `b` of a block, over real blocks. -/
def blockLogit (xr : Fin 256 → Fin 128 → ℝ) (kr : Fin 800 → Fin 128 → ℝ) (p : Fin 256) (b : Fin 800) : ℝ :=
  (∑ e : Fin 128, xr p e * kr b e) * scale

variable (x : Vec Ideal S256x128 .bf16) (k v : Vec Ideal S800x128 .bf16) (m l a : Vec Ideal S256x128 .f32)
variable (xr : Fin 256 → Fin 128 → ℝ) (kr vr : Fin 800 → Fin 128 → ℝ)

theorem logit_real (hx : ∀ p e, x (ix2 p e) = (xr p e : EReal)) (hk : ∀ b e, k (ix2 b e) = (kr b e : EReal))
    (p : Fin 256) (b : Fin 800) : k0_pay8 x k (ix2 p b) = (blockLogit xr kr p b : EReal) := by
  rw [logit_apply]
  simp only [hx, hk, ← EReal.coe_mul, coe_sum]
  rfl

theorem newmax_real (hx : ∀ p e, x (ix2 p e) = (xr p e : EReal)) (hk : ∀ b e, k (ix2 b e) = (kr b e : EReal))
    (hm : ∀ p, m (ix2 p 0) = ⊥ ∨ ∃ r : ℝ, m (ix2 p 0) = (r : EReal)) (p : Fin 256) :
    ∃ M' : ℝ, k0_pay10 x k m (ix2 p 0) = (M' : EReal) := by
  rw [newmax_apply]
  simp only [logit_real x k xr kr hx hk]
  obtain ⟨r, hr⟩ := fold_max_real (Finset.univ : Finset (Fin 800)) Finset.univ_nonempty (fun b => blockLogit xr kr p b) ⊥ bot_ne_top
  rw [hr]
  exact max_real_of_bot_or_real (hm p) r

/-- One key block. -/
theorem step (hx : ∀ p e, x (ix2 p e) = (xr p e : EReal)) (hk : ∀ b e, k (ix2 b e) = (kr b e : EReal))
    (hv : ∀ b q, v (ix2 b q) = (vr b q : EReal))
    (hm : ∀ p, m (ix2 p 0) = ⊥ ∨ ∃ r : ℝ, m (ix2 p 0) = (r : EReal))
    (Lp : Fin 256 → ℝ) (hl : ∀ p, l (ix2 p 0) = (Lp p : EReal))
    (Ap : Fin 256 → Fin 128 → ℝ) (ha : ∀ p q, a (ix2 p q) = (Ap p q : EReal)) :
    ∃ (M' α : Fin 256 → ℝ),
      (∀ p, (m (ix2 p 0) = ⊥ ∧ α p = 0) ∨ ∃ r : ℝ, m (ix2 p 0) = (r : EReal) ∧ α p = Real.exp (r - M' p)) ∧
      ∀ p q,
        k0_pay2 (k0_pay10 x k m) (ix2 p q) = (M' p : EReal) ∧
        k0_pay3 (k0_pay13 x k m l) (ix2 p q) = ((α p * Lp p + ∑ b : Fin 800, Real.exp (blockLogit xr kr p b - M' p) : ℝ) : EReal) ∧
        k0_pay1 (k0_pay14 x k m v a) (ix2 p q)
          = ((Ap p q * α p + ∑ b : Fin 800, Real.exp (blockLogit xr kr p b - M' p) * vr b q : ℝ) : EReal) := by
  choose M' hM' using newmax_real x k m xr kr hx hk hm
  -- the rescale factor, row by row
  have hα : ∀ p, ∃ αp : ℝ, k0_pay11 x k m (ix2 p 0) = (αp : EReal) ∧
      ((m (ix2 p 0) = ⊥ ∧ αp = 0) ∨ ∃ r : ℝ, m (ix2 p 0) = (r : EReal) ∧ αp = Real.exp (r - M' p)) := by
    intro p
    rw [alpha_apply, hM']
    rcases hm p with h | ⟨r, h⟩
    · exact ⟨0, by rw [h, exp_bot_sub_coe]; rfl, Or.inl ⟨h, rfl⟩⟩
    · exact ⟨Real.exp (r - M' p), by rw [h, exp_coe_sub_coe], Or.inr ⟨r, h, rfl⟩⟩
  choose α hα1 hα2 using hα
  have hw : ∀ p b, k0_pay12 x k m (ix2 p b) = ((Real.exp (blockLogit xr kr p b - M' p) : ℝ) : EReal) := fun p b => by
    rw [weight_apply, logit_real x k xr kr hx hk, hM', exp_coe_sub_coe]
  refine ⟨M', α, hα2, fun p q => ⟨?_, ?_, ?_⟩⟩
  · rw [store_col, hM']
  · rw [store_col', newsum_apply, hα1, hl]
    simp only [hw, coe_sum, ← EReal.coe_mul, ← EReal.coe_add]
  · rw [store_acc, newacc_apply, hα1, ha]
    simp only [hw, hv, coe_sum, ← EReal.coe_mul, ← EReal.coe_add]

/-- The last key block's stored quotient, once the updated sum and accumulator are real and the sum is not zero. -/
theorem quot_real (A L : ℝ) (hL : L ≠ 0) (p : Fin 256) (q : Fin 128)
    (hA : a (ix2 p q) = (A : EReal)) (hl : l (ix2 p 0) = (L : EReal)) :
    k0_pay4 a l (ix2 p q) = ((A / L : ℝ) : EReal) := by
  rw [quot_apply, hA, hl, div_coe_coe A hL]

end Cert.KernelIdeal.Online

end
-- ==== Proof.Blocks.lean ====
/-
  What the three input windows hold at grid point `t` of the 4 × 125 grid. The point handles query rows
  `256 * (t / 125) + p` and key rows `800 * (t % 125) + b`. The arrays the windows read are the three argument arrays
  after a change of float format, which at exact values is the identity.
-/
import proofs.«150222_g335007450007_cont_8to1_b_1674_5_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.Online

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The query block, the key block and the value block of a point, at their literal shapes. -/
abbrev qblk (c : Dev nD) (t : Fin cfg0.N) : Vec Ideal S256x128 .bf16 := iblk m c 0 t
abbrev kblk (c : Dev nD) (t : Fin cfg0.N) : Vec Ideal S800x128 .bf16 := iblk m c 1 t
abbrev vblk (c : Dev nD) (t : Fin cfg0.N) : Vec Ideal S800x128 .bf16 := iblk m c 2 t

/-- The three argument arrays. -/
abbrev qarr (c : Dev nD) : FVec Ideal S1024x128 .f32 := m ((c : Thread nD τ).loc main_arg0)
abbrev karr (c : Dev nD) : FVec Ideal S100000x128 .f32 := m ((c : Thread nD τ).loc main_arg1)
abbrev varr (c : Dev nD) : FVec Ideal S100000x128 .f32 := m ((c : Thread nD τ).loc main_arg2)

/-- The arrays the windows read are the arguments with their format changed. -/
theorem V_q (c : Dev nD) : (V m c main_call0_v0 : S1024x128.Idx → EReal) = truncf .bf16 (qarr m c) bitsLt_bf16_f32 := by
  dsimp only [Gen.V, Gen.hostOps0]; after_results; rfl
theorem V_k (c : Dev nD) : (V m c main_call0_v1 : S100000x128.Idx → EReal) = truncf .bf16 (karr m c) bitsLt_bf16_f32 := by
  dsimp only [Gen.V, Gen.hostOps0]; after_results; rfl
theorem V_v (c : Dev nD) : (V m c main_call0_v2 : S100000x128.Idx → EReal) = truncf .bf16 (varr m c) bitsLt_bf16_f32 := by
  dsimp only [Gen.V, Gen.hostOps0]; after_results; rfl

/-- Which block each window is on at a point: decided once over the grid. -/
theorem idx_facts : ∀ t : Fin cfg0.N,
    win0_0.index t (0 : Fin 2) = t.val / 125 ∧ win0_0.index t (1 : Fin 2) = 0 ∧
    win0_1.index t (0 : Fin 2) = t.val % 125 ∧ win0_1.index t (1 : Fin 2) = 0 ∧
    win0_2.index t (0 : Fin 2) = t.val % 125 ∧ win0_2.index t (1 : Fin 2) = 0 ∧
    win0_3.index t (0 : Fin 2) = t.val / 125 ∧ win0_3.index t (1 : Fin 2) = 0 :=
  (by decide +kernel : ∀ t : Fin grid0.N, _)

/-- The query block's row `p` is query row `256 * (t / 125) + p`. -/
theorem qblk_apply (c : Dev nD) (t : Fin cfg0.N) (p : Fin 256) (e : Fin 128) (r : Fin 1024) (hr : r.val = t.val / 125 * 256 + p.val) :
    qblk m c t (ix2 p e) = qarr m c (ix2 r e) := by
  show ((cfg0.win 0).blk t).view.read (Elt Ideal) (V m c main_call0_v0) (ix2 p e) = _
  rw [View.read_apply, V_q]
  show qarr m c (((cfg0.win 0).blk t).view.emb (ix2 p e)) = qarr m c (ix2 r e)
  refine congrArg (qarr m c) (funext fun a => Fin.ext ?_)
  obtain ⟨h0, h1, -⟩ := idx_facts t
  match a with
  | ⟨0, _⟩ =>
    show win0_0.index t 0 * 256 + 1 * p.val = r.val
    rw [h0, hr]; omega
  | ⟨1, _⟩ =>
    show win0_0.index t 1 * 128 + 1 * e.val = e.val
    rw [h1]; omega

/-- The key block's row `b` is key row `800 * (t % 125) + b`. -/
theorem kblk_apply (c : Dev nD) (t : Fin cfg0.N) (b : Fin 800) (e : Fin 128) (n : Fin 100000) (hn : n.val = t.val % 125 * 800 + b.val) :
    kblk m c t (ix2 b e) = karr m c (ix2 n e) := by
  show ((cfg0.win 1).blk t).view.read (Elt Ideal) (V m c main_call0_v1) (ix2 b e) = _
  rw [View.read_apply, V_k]
  show karr m c (((cfg0.win 1).blk t).view.emb (ix2 b e)) = karr m c (ix2 n e)
  refine congrArg (karr m c) (funext fun a => Fin.ext ?_)
  obtain ⟨-, -, h0, h1, -⟩ := idx_facts t
  match a with
  | ⟨0, _⟩ =>
    show win0_1.index t 0 * 800 + 1 * b.val = n.val
    rw [h0, hn]; omega
  | ⟨1, _⟩ =>
    show win0_1.index t 1 * 128 + 1 * e.val = e.val
    rw [h1]; omega

/-- The value block's row `b` is value row `800 * (t % 125) + b`. -/
theorem vblk_apply (c : Dev nD) (t : Fin cfg0.N) (b : Fin 800) (q : Fin 128) (n : Fin 100000) (hn : n.val = t.val % 125 * 800 + b.val) :
    vblk m c t (ix2 b q) = varr m c (ix2 n q) := by
  show ((cfg0.win 2).blk t).view.read (Elt Ideal) (V m c main_call0_v2) (ix2 b q) = _
  rw [View.read_apply, V_v]
  show varr m c (((cfg0.win 2).blk t).view.emb (ix2 b q)) = varr m c (ix2 n q)
  refine congrArg (varr m c) (funext fun a => Fin.ext ?_)
  obtain ⟨-, -, -, -, h0, h1, -⟩ := idx_facts t
  match a with
  | ⟨0, _⟩ =>
    show win0_2.index t 0 * 800 + 1 * b.val = n.val
    rw [h0, hn]; omega
  | ⟨1, _⟩ =>
    show win0_2.index t 1 * 128 + 1 * q.val = q.val
    rw [h1]; omega

end Cert.KernelIdeal.Online

end
-- ==== Proof.Invariant.lean ====
/-
  The invariant of the online softmax. After the key block `j` of query-row block `i`, for every row `p` of the block
  there is a real shift `M p` (the running maximum) such that, with `s n` the row's logit against key row `n`,

      running maximum  = M p
      running sum      = ∑ over the key rows n of blocks 0 .. j of  exp (s n - M p)
      accumulator      = ∑ over the same n of                        exp (s n - M p) * V n q

  all three replicated or laid out over the 256 × 128 scratch arrays. A new block changes the shift from `M` to `M'`:
  the old sums are multiplied by `exp (M - M')`, which turns every `exp (s n - M)` into `exp (s n - M')`, and the
  block's own terms are added. After a reset the old sums are zero and the factor does not matter.
-/
import proofs.«150222_g335007450007_cont_8to1_b_1674_5_alg».proof.Proof.Pieces
import proofs.«150222_g335007450007_cont_8to1_b_1674_5_alg».proof.Proof.Step
import proofs.«150222_g335007450007_cont_8to1_b_1674_5_alg».proof.Proof.Blocks

set_option maxRecDepth 16384

noncomputable section

open scoped BigOperators

namespace Cert.KernelIdeal.Online

open Cert.KernelIdeal Cert.KernelIdeal.Gen Cert.Attn
open Idealize.ShloMosaic Idealize.ShloMosaic.TcCoe Idealize.ShloMosaic.ValueIdx Idealize.SL.Sem

/-! ## The real arithmetic of one more block -/

/-- The weighted sums pass from the shift `M` over `j` blocks to the shift `M'` over `j + 1` blocks. -/
theorem sum_step (s w : Fin 100000 → ℝ) (M M' : ℝ) (j : Fin 125) :
    blockSum (fun n => Real.exp (s n - M) * w n) j.val * Real.exp (M - M') + ∑ b : Fin 800, Real.exp (s (keyRow j b) - M') * w (keyRow j b)
      = blockSum (fun n => Real.exp (s n - M') * w n) (j.val + 1) := by
  rw [blockSum_succ, blockSum_reshift s w M M', mul_comm]

/-- The same for the plain sums of weights. -/
theorem sum_step_one (s : Fin 100000 → ℝ) (M M' : ℝ) (j : Fin 125) :
    Real.exp (M - M') * blockSum (fun n => Real.exp (s n - M)) j.val + ∑ b : Fin 800, Real.exp (s (keyRow j b) - M')
      = blockSum (fun n => Real.exp (s n - M')) (j.val + 1) := by
  have h := sum_step s (fun _ => 1) M M' j
  simp only [mul_one] at h
  rw [← h, mul_comm]

/-- The first block after a reset: whatever the factor, the old sums are zero. -/
theorem sum_first (f : Fin 100000 → ℝ) (α : ℝ) (j : Fin 125) (hj : j.val = 0) :
    α * 0 + ∑ b : Fin 800, f (keyRow j b) = blockSum f (j.val + 1) := by
  rw [blockSum_succ, hj, blockSum_zero]; ring

theorem sum_first' (f : Fin 100000 → ℝ) (α : ℝ) (j : Fin 125) (hj : j.val = 0) :
    0 * α + ∑ b : Fin 800, f (keyRow j b) = blockSum f (j.val + 1) := by
  rw [blockSum_succ, hj, blockSum_zero]; ring

/-! ## The invariant -/

/-- Row `p` of query-row block `i`. -/
def rowOf (i : ℕ) (p : Fin 256) : Fin 1024 := ⟨i % 4 * 256 + p.val, by have := p.isLt; omega⟩

variable (xR : S1024x128.Idx → ℝ) (KR VR : S100000x128.Idx → ℝ)

/-- The three scratch arrays after `k` key blocks of query-row block `i`. -/
def InvAt (acc mx sm : Vec Ideal S256x128 .f32) (i k : ℕ) : Prop :=
  ∃ M : Fin 256 → ℝ, ∀ (p : Fin 256) (q : Fin 128),
    mx (ix2 p q) = (M p : EReal) ∧
    sm (ix2 p q) = ((blockSum (fun n => Real.exp (logit xR KR (rowOf i p) n - M p)) k : ℝ) : EReal) ∧
    acc (ix2 p q) = ((blockSum (fun n => Real.exp (logit xR KR (rowOf i p) n - M p) * VR (ix2 n q)) k : ℝ) : EReal)

/-- One more key block: from a reset (first block) or from the invariant after `j` blocks to the invariant after
    `j + 1` blocks. -/
theorem invAt_step (x : Vec Ideal S256x128 .bf16) (k v : Vec Ideal S800x128 .bf16) (m l a : Vec Ideal S256x128 .f32)
    (i : ℕ) (j : Fin 125)
    (hx : ∀ p e, x (ix2 p e) = (xR (ix2 (rowOf i p) e) : EReal))
    (hk : ∀ b e, k (ix2 b e) = (KR (ix2 (keyRow j b) e) : EReal))
    (hv : ∀ b q, v (ix2 b q) = (VR (ix2 (keyRow j b) q) : EReal))
    (hprev : (j.val = 0 ∧ (∀ y, m y = (⊥ : EReal)) ∧ (∀ y, l y = (0 : EReal)) ∧ (∀ y, a y = (0 : EReal))) ∨ InvAt xR KR VR a m l i j.val) :
    InvAt xR KR VR (k0_pay1 (k0_pay14 x k m v a)) (k0_pay2 (k0_pay10 x k m)) (k0_pay3 (k0_pay13 x k m l)) i (j.val + 1) := by
  rcases hprev with ⟨hj, hm, hl, ha⟩ | ⟨M, hM⟩
  · obtain ⟨M', α, -, hst⟩ := step x k v m l a (fun p e => xR (ix2 (rowOf i p) e)) (fun b e => KR (ix2 (keyRow j b) e))
      (fun b q => VR (ix2 (keyRow j b) q)) hx hk hv (fun p => Or.inl (hm _)) (fun _ => 0) (fun p => by rw [hl]; rfl)
      (fun _ _ => 0) (fun p q => by rw [ha]; rfl)
    refine ⟨M', fun p q => ?_⟩
    obtain ⟨e1, e2, e3⟩ := hst p q
    refine ⟨e1, e2.trans (congrArg _ ?_), e3.trans (congrArg _ ?_)⟩
    · exact sum_first (fun n => Real.exp (logit xR KR (rowOf i p) n - M' p)) (α p) j hj
    · exact sum_first' (fun n => Real.exp (logit xR KR (rowOf i p) n - M' p) * VR (ix2 n q)) (α p) j hj
  · obtain ⟨M', α, hα, hst⟩ := step x k v m l a (fun p e => xR (ix2 (rowOf i p) e)) (fun b e => KR (ix2 (keyRow j b) e))
      (fun b q => VR (ix2 (keyRow j b) q)) hx hk hv (fun p => Or.inr ⟨M p, (hM p 0).1⟩)
      (fun p => blockSum (fun n => Real.exp (logit xR KR (rowOf i p) n - M p)) j.val) (fun p => (hM p 0).2.1)
      (fun p q => blockSum (fun n => Real.exp (logit xR KR (rowOf i p) n - M p) * VR (ix2 n q)) j.val) (fun p q => (hM p q).2.2)
    refine ⟨M', fun p q => ?_⟩
    obtain ⟨e1, e2, e3⟩ := hst p q
    have hαp : α p = Real.exp (M p - M' p) := by
      rcases hα p with ⟨hb, -⟩ | ⟨r, hr, hαr⟩
      · exact absurd ((hM p 0).1.symm.trans hb) (EReal.coe_ne_bot _)
      · rw [hαr, EReal.coe_eq_coe_iff.mp ((hM p 0).1.symm.trans hr)]
    refine ⟨e1, e2.trans (congrArg _ ?_), e3.trans (congrArg _ ?_)⟩
    · rw [hαp]; exact sum_step_one (fun n => logit xR KR (rowOf i p) n) (M p) (M' p) j
    · rw [hαp]; exact sum_step (fun n => logit xR KR (rowOf i p) n) (fun n => VR (ix2 n q)) (M p) (M' p) j

/-! ## The invariant along the grid -/

variable (m : (ℓ : Loc nD τ sig) → Buf (Elt Ideal) ℓ) (c : Dev nD)

/-- The invariant at grid point `t`: query-row block `t / 125`, key blocks `0 .. t % 125`. -/
def Inv (t : Fin cfg0.N) : Prop :=
  InvAt xR KR VR (outsAt0 m c t.val t.isLt).2.1 (outsAt0 m c t.val t.isLt).2.2.1 (outsAt0 m c t.val t.isLt).2.2.2 (t.val / 125) (t.val % 125 + 1)

/-- The key block of a point. -/
def blkOf (t : Fin cfg0.N) : Fin 125 := ⟨t.val % 125, Nat.mod_lt _ (by norm_num)⟩

variable (hq : ∀ i, qarr m c i = (xR i : EReal)) (hkk : ∀ i, karr m c i = (KR i : EReal)) (hvv : ∀ i, varr m c i = (VR i : EReal))

include hq in
theorem q_real (t : Fin cfg0.N) (p : Fin 256) (e : Fin 128) :
    qblk m c t (ix2 p e) = (xR (ix2 (rowOf (t.val / 125) p) e) : EReal) := by
  have hN : t.val < 500 := lt_of_lt_of_eq t.isLt N_0
  rw [qblk_apply m c t p e (rowOf (t.val / 125) p) (by show t.val / 125 % 4 * 256 + p.val = _; omega), hq]

include hkk in
theorem k_real (t : Fin cfg0.N) (b : Fin 800) (e : Fin 128) :
    kblk m c t (ix2 b e) = (KR (ix2 (keyRow (blkOf t) b) e) : EReal) := by
  rw [kblk_apply m c t b e (keyRow (blkOf t) b) rfl, hkk]

include hvv in
theorem v_real (t : Fin cfg0.N) (b : Fin 800) (q : Fin 128) :
    vblk m c t (ix2 b q) = (VR (ix2 (keyRow (blkOf t) b) q) : EReal) := by
  rw [vblk_apply m c t b q (keyRow (blkOf t) b) rfl, hvv]

include hq hkk hvv in
/-- At the first key block of a row block the scratch is reset and updated. -/
theorem inv_first (t : Fin cfg0.N) (h0 : t.val % 125 = 0) : Inv xR KR VR m c t := by
  have h1 : ¬t.val % 125 = 124 := by omega
  unfold Inv
  rw [outsAt0_A m c t h0 h1]
  dsimp only
  rw [acc_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (qblk m c t) (kblk m c t) (vblk m c t) ((hcond0_0 t).mpr h0) (fun h => h1 ((hcond0_1 t).mp h)),
    max_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (qblk m c t) (kblk m c t) (vblk m c t) ((hcond0_0 t).mpr h0) (fun h => h1 ((hcond0_1 t).mp h)),
    sum_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (qblk m c t) (kblk m c t) (vblk m c t) ((hcond0_0 t).mpr h0) (fun h => h1 ((hcond0_1 t).mp h))]
  exact invAt_step xR KR VR (qblk m c t) (kblk m c t) (vblk m c t) (k0_pay5 (F := Ideal)) (k0_pay6 (F := Ideal)) (k0_pay7 (F := Ideal))
    (t.val / 125) (blkOf t) (q_real xR m c hq t) (k_real KR m c hkk t) (v_real VR m c hvv t)
    (Or.inl ⟨h0, reset_max, reset_sum, reset_acc⟩)

/-- What the point before `t` left in the three scratch arrays. -/
abbrev prevAcc (t : Fin cfg0.N) : Vec Ideal S256x128 .f32 := (outsAt0 m c (t.val - 1) (Nat.lt_of_le_of_lt (Nat.sub_le _ _) t.isLt)).2.1
abbrev prevMax (t : Fin cfg0.N) : Vec Ideal S256x128 .f32 := (outsAt0 m c (t.val - 1) (Nat.lt_of_le_of_lt (Nat.sub_le _ _) t.isLt)).2.2.1
abbrev prevSum (t : Fin cfg0.N) : Vec Ideal S256x128 .f32 := (outsAt0 m c (t.val - 1) (Nat.lt_of_le_of_lt (Nat.sub_le _ _) t.isLt)).2.2.2

include hq hkk hvv in
/-- A later key block of a row block updates what the block before left: the values it stores satisfy the invariant
    with one more block. -/
theorem invAt_next (t : Fin cfg0.N)
    (ih : InvAt xR KR VR (prevAcc m c t) (prevMax m c t) (prevSum m c t) (t.val / 125) (t.val % 125)) :
    InvAt xR KR VR (k0_pay1 (k0_pay14 (qblk m c t) (kblk m c t) (prevMax m c t) (vblk m c t) (prevAcc m c t)))
      (k0_pay2 (k0_pay10 (qblk m c t) (kblk m c t) (prevMax m c t)))
      (k0_pay3 (k0_pay13 (qblk m c t) (kblk m c t) (prevMax m c t) (prevSum m c t))) (t.val / 125) (t.val % 125 + 1) :=
  invAt_step xR KR VR (qblk m c t) (kblk m c t) (vblk m c t) (prevMax m c t) (prevSum m c t) (prevAcc m c t)
    (t.val / 125) (blkOf t) (q_real xR m c hq t) (k_real KR m c hkk t) (v_real VR m c hvv t) (Or.inr ih)

include hq hkk hvv in
/-- The invariant passes from a point to the next one of the same row block. -/
theorem inv_next (t : Fin cfg0.N) (h0 : ¬t.val % 125 = 0)
    (ih : InvAt xR KR VR (prevAcc m c t) (prevMax m c t) (prevSum m c t) (t.val / 125) (t.val % 125)) :
    Inv xR KR VR m c t := by
  unfold Inv
  by_cases h1 : t.val % 125 = 124
  · rw [outsAt0_C m c t h0 h1]
    dsimp only
    rw [acc_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (qblk m c t) (kblk m c t) (vblk m c t) (prevAcc m c t) (prevMax m c t) (prevSum m c t) (fun h => h0 ((hcond0_0 t).mp h)) ((hcond0_1 t).mpr h1),
      max_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (qblk m c t) (kblk m c t) (vblk m c t) (prevAcc m c t) (prevMax m c t) (prevSum m c t) (fun h => h0 ((hcond0_0 t).mp h)) ((hcond0_1 t).mpr h1),
      sum_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (qblk m c t) (kblk m c t) (vblk m c t) (prevAcc m c t) (prevMax m c t) (prevSum m c t) (fun h => h0 ((hcond0_0 t).mp h)) ((hcond0_1 t).mpr h1)]
    exact invAt_next xR KR VR m c hq hkk hvv t ih
  · rw [outsAt0_B m c t h0 h1]
    dsimp only
    rw [acc_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (qblk m c t) (kblk m c t) (vblk m c t) (prevAcc m c t) (prevMax m c t) (prevSum m c t) (fun h => h0 ((hcond0_0 t).mp h)) (fun h => h1 ((hcond0_1 t).mp h)),
      max_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (qblk m c t) (kblk m c t) (vblk m c t) (prevAcc m c t) (prevMax m c t) (prevSum m c t) (fun h => h0 ((hcond0_0 t).mp h)) (fun h => h1 ((hcond0_1 t).mp h)),
      sum_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (qblk m c t) (kblk m c t) (vblk m c t) (prevAcc m c t) (prevMax m c t) (prevSum m c t) (fun h => h0 ((hcond0_0 t).mp h)) (fun h => h1 ((hcond0_1 t).mp h))]
    exact invAt_next xR KR VR m c hq hkk hvv t ih

include hq hkk hvv in
/-- The invariant holds at every grid point: by induction along the grid, a reset at each row block's first point. -/
theorem inv_all : ∀ (n : ℕ) (hn : n < cfg0.N), Inv xR KR VR m c ⟨n, hn⟩
  | 0, hn => inv_first xR KR VR m c hq hkk hvv ⟨0, hn⟩ rfl
  | n + 1, hn => by
    have hN : n + 1 < 500 := lt_of_lt_of_eq hn N_0
    by_cases h0 : (n + 1) % 125 = 0
    · exact inv_first xR KR VR m c hq hkk hvv ⟨n + 1, hn⟩ h0
    · have ih := inv_all n (Nat.lt_of_succ_lt hn)
      unfold Inv at ih
      have e1 : n / 125 = (n + 1) / 125 := by omega
      have e2 : n % 125 + 1 = (n + 1) % 125 := by omega
      refine inv_next xR KR VR m c hq hkk hvv ⟨n + 1, hn⟩ h0 ?_
      show InvAt xR KR VR (outsAt0 m c n _).2.1 (outsAt0 m c n _).2.2.1 (outsAt0 m c n _).2.2.2 ((n + 1) / 125) ((n + 1) % 125)
      rw [← e1, ← e2]
      exact ih

end Cert.KernelIdeal.Online

end
-- ==== Proof.KernelValue.lean ====
/-
  The blocked program's result array. The output block of a query-row block is stored once, at the row block's last
  key block: the accumulator divided by the running sum. By the invariant both are sums over all 100000 key rows with
  the same real shift, so the quotient is the softmax attention of the specification, whatever the shift. The four
  stored blocks tile the result array.
-/
import proofs.«150222_g335007450007_cont_8to1_b_1674_5_alg».proof.Proof.Invariant
import proofs.«150222_g335007450007_cont_8to1_b_1674_5_alg».proof.Proof.Gen.KernelIdeal.Value

set_option maxRecDepth 16384

noncomputable section

open scoped BigOperators

namespace Cert.KernelIdeal.Online

open Cert.KernelIdeal Cert.KernelIdeal.Gen Cert.Attn
open Idealize.ShloMosaic Idealize.ShloMosaic.TcCoe Idealize.ShloMosaic.ValueIdx Idealize.SL.Sem
open Idealize.ShloMosaic.Pipeline (Dat)

variable (xR : S1024x128.Idx → ℝ) (KR VR : S100000x128.Idx → ℝ)

/-- After all 125 key blocks the stored quotient is the specification's value, for any real shift. -/
theorem quot_of_inv (acc mx sm : Vec Ideal S256x128 .f32) (i : ℕ) (h : InvAt xR KR VR acc mx sm i 125) (p : Fin 256) (q : Fin 128) :
    k0_pay4 acc sm (ix2 p q) = ((attn xR KR VR (rowOf i p) q : ℝ) : EReal) := by
  haveI : Nonempty (Fin 100000) := ⟨⟨0, by norm_num⟩⟩
  obtain ⟨M, hM⟩ := h
  have hpos : (0 : ℝ) < blockSum (fun n => Real.exp (logit xR KR (rowOf i p) n - M p)) 125 := by
    rw [blockSum_all]; exact sum_exp_pos _
  rw [quot_real sm acc _ _ hpos.ne' p q (hM p q).2.2 (hM p 0).2.1]
  refine congrArg (fun r : ℝ => (r : EReal)) ?_
  rw [blockSum_all, blockSum_all]
  unfold attn
  exact shifted_quot (fun n => logit xR KR (rowOf i p) n) (fun n => VR (ix2 n q)) (M p)

variable (m : (ℓ : Loc nD τ sig) → Buf (Elt Ideal) ℓ) (ρ : Dev nD → PrngReg) (c : Dev nD)
variable (hq : ∀ i, qarr m c i = (xR i : EReal)) (hkk : ∀ i, karr m c i = (KR i : EReal)) (hvv : ∀ i, varr m c i = (VR i : EReal))

include hq hkk hvv in
/-- The specification at an index, through the real parts of the argument arrays. -/
theorem G_real (r : Fin 1024) (q : Fin 128) :
    G (qarr m c) (karr m c) (varr m c) (ix2 r q) = ((attn xR KR VR r q : ℝ) : EReal) := by
  have e0 : (fun a => (qarr m c a).toReal) = xR := funext fun a => by rw [hq]; exact EReal.toReal_coe _
  have e1 : (fun a => (karr m c a).toReal) = KR := funext fun a => by rw [hkk]; exact EReal.toReal_coe _
  have e2 : (fun a => (varr m c a).toReal) = VR := funext fun a => by rw [hvv]; exact EReal.toReal_coe _
  unfold G
  rw [e0, e1, e2]

include hq hkk hvv in
/-- What a row block's last point writes back is that block of the specification. -/
theorem flushed_eq (t : Fin cfg0.N) (hf : (cfg0.win 3).flush t = true) :
    (dats m 0 c).flushed 3 t = ((cfg0.win 3).blk t).view.read (Elt Ideal) (G (qarr m c) (karr m c) (varr m c)) := by
  have h1 : t.val % 125 = 124 := (flush0_3 t).mp hf
  have h0 : ¬t.val % 125 = 0 := by omega
  have hN : t.val < 500 := lt_of_lt_of_eq t.isLt N_0
  -- the invariant at the point before, restated for this point's row block
  have hpos : 0 < t.val := by omega
  have ih : InvAt xR KR VR (prevAcc m c t) (prevMax m c t) (prevSum m c t) (t.val / 125) (t.val % 125) := by
    have h := inv_all xR KR VR m c hq hkk hvv (t.val - 1) (Nat.lt_of_le_of_lt (Nat.sub_le _ _) t.isLt)
    unfold Inv at h
    have e1 : (t.val - 1) / 125 = t.val / 125 := by omega
    have e2 : (t.val - 1) % 125 + 1 = t.val % 125 := by omega
    rw [e1, e2] at h
    exact h
  have hfin := invAt_next xR KR VR m c hq hkk hvv t ih
  rw [show t.val % 125 + 1 = 125 from by omega] at hfin
  rw [Value.flushed3_C m c t h0 h1,
    out_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (qblk m c t) (kblk m c t) (vblk m c t) (prevAcc m c t) (prevMax m c t) (prevSum m c t) (fun h => h0 ((hcond0_0 t).mp h)) ((hcond0_1 t).mpr h1)]
  funext y
  show k0_pay4 (k0_pay1 (k0_pay14 (qblk m c t) (kblk m c t) (prevMax m c t) (vblk m c t) (prevAcc m c t)))
      (k0_pay3 (k0_pay13 (qblk m c t) (kblk m c t) (prevMax m c t) (prevSum m c t))) (ix2 (y 0) (y 1))
    = G (qarr m c) (karr m c) (varr m c) (((cfg0.win 3).blk t).view.emb y)
  have hemb : ((cfg0.win 3).blk t).view.emb y = ix2 (rowOf (t.val / 125) (y 0)) (y 1) := by
    obtain ⟨-, -, -, -, -, -, i0, i1⟩ := idx_facts t
    funext a; apply Fin.ext
    match a with
    | ⟨0, _⟩ =>
      show win0_3.index t 0 * 256 + 1 * (y 0).val = t.val / 125 % 4 * 256 + (y 0).val
      rw [i0]; omega
    | ⟨1, _⟩ =>
      show win0_3.index t 1 * 128 + 1 * (y 1).val = (y 1).val
      rw [i1]; omega
  rw [hemb]
  exact (quot_of_inv xR KR VR _ _ _ (t.val / 125) hfin _ _).trans (G_real xR KR VR m c hq hkk hvv _ _).symm

/-- An index of the result array is in a point's output block iff each coordinate is in the block's range. -/
theorem mem_blk (t : Fin cfg0.N) (i : S1024x128.Idx) :
    i ∈ ((cfg0.win 3).blk t).view.set ↔ ∀ a : Fin 2, win0_3.index t a * S256x128.size a ≤ (i a).val ∧ (i a).val < win0_3.index t a * S256x128.size a + S256x128.size a := by
  show i ∈ ((View.whole main_v0).slice (win0_3.rect t)).set ↔ _
  rw [View.set_slice_whole, Rect.mem_set_unit]
  exact Iff.rfl

/-- Every index of the result array lies in the block written back at the last point of its row block. -/
theorem cover (i : S1024x128.Idx) : ∃ t : Fin cfg0.N, (cfg0.win 3).flush t = true ∧ i ∈ ((cfg0.win 3).blk t).view.set := by
  have hi0 : (i 0).val < 1024 := (i 0).isLt
  have hi1 : (i 1).val < 128 := (i 1).isLt
  refine ⟨⟨(i 0).val / 256 * 125 + 124, by rw [show cfg0.N = 500 from N_0]; omega⟩, (flush0_3 _).mpr (by show ((i 0).val / 256 * 125 + 124) % 125 = 124; omega), ?_⟩
  rw [mem_blk]
  obtain ⟨-, -, -, -, -, -, i0, i1⟩ := idx_facts ⟨(i 0).val / 256 * 125 + 124, by rw [show cfg0.N = 500 from N_0]; omega⟩
  intro a
  match a with
  | ⟨0, _⟩ =>
    show win0_3.index _ 0 * 256 ≤ (i 0).val ∧ (i 0).val < win0_3.index _ 0 * 256 + 256
    rw [i0]; show ((i 0).val / 256 * 125 + 124) / 125 * 256 ≤ (i 0).val ∧ (i 0).val < ((i 0).val / 256 * 125 + 124) / 125 * 256 + 256
    omega
  | ⟨1, _⟩ =>
    show win0_3.index _ 1 * 128 ≤ (i 1).val ∧ (i 1).val < win0_3.index _ 1 * 128 + 128
    rw [i1]; omega

include hq hkk hvv in
/-- The result array after the run is the specification of the argument arrays. -/
theorem final : (dats m 0 c).arrAt 3 cfg0.N = G (qarr m c) (karr m c) (varr m c) :=
  (dats m 0 c).arrAt_eq_of_cover 3 (G (qarr m c) (karr m c) (varr m c)) (fun t hf => flushed_eq xR KR VR m c hq hkk hvv t hf) (cover)

end Cert.KernelIdeal.Online

end
-- ==== Proof.RefValue.lean ====
/-
  The reference computes softmax attention with the row maximum as the shift: logits `(x · Kᵀ) / D` with
  `D = 5368709 / 2^29`, the row maximum `M`, `e = exp (logit - M)`, the row sum `S` of `e`, and `∑ n, (e n / S) * V n q`.
  On real inputs the division by `D` is the product with `1 / D`, the maximum of 100000 real logits is a real number,
  and the normalised weighted sum is the quotient of the shifted sums, which does not depend on the shift.
-/
import proofs.«150222_g335007450007_cont_8to1_b_1674_5_alg».proof.Proof.Gen.ReferenceIdeal.Read
import proofs.«150222_g335007450007_cont_8to1_b_1674_5_alg».proof.Proof.Spec
import proofs.«150222_g335007450007_cont_8to1_b_1674_5_alg».proof.Proof.Reals
import Idealize.ShloMosaic.PureOps.Reduce

noncomputable section

open scoped BigOperators

namespace Cert.ReferenceIdeal.RefValue

open Cert.ReferenceIdeal Cert.ReferenceIdeal.Gen Idealize.ShloMosaic Idealize.ShloMosaic.ValueIdx
open Cert.ReferenceIdeal.Read Cert.Attn

/-! ## The three literals -/

/-- The word `0x3C23D70A`: exponent field `120`, fraction `2348810`, so `(2^23 + 2348810) · 2^(-30) = 5368709 / 2^29`. -/
theorem temperature_word : Ideal.ofBits .f32 0x3C23D70A#32 = ((5368709 / 536870912 : ℝ) : EReal) := by
  simp [Ideal.ofBits, Ideal.ieee, -EReal.coe_mul]; norm_num

/-- The word `0xFF800000` is `-∞`. -/
theorem neg_inf_word : Ideal.ofBits .f32 0xFF800000#32 = (⊥ : EReal) := by
  simp [Ideal.ofBits, Ideal.ieee]

/-- The word `0x00000000` is `0`. -/
theorem zero_word : Ideal.ofBits .f32 0x00000000#32 = (0 : EReal) := by
  simp [Ideal.ofBits, Ideal.ieee]

/-! ## Every stage is a real number

The argument arrays `x0`, `x1`, `x2` are the real arrays `a`, `K`, `V` seen in the extended reals. -/

section Stages

variable (x0 : (⟨S1024x128, .f32⟩ : BufTy).Contents (Elt Ideal)) (x1 x2 : (⟨S100000x128, .f32⟩ : BufTy).Contents (Elt Ideal))
  (a : SQ.Idx → ℝ) (K V : SK.Idx → ℝ)
  (hx0 : ∀ i, x0 i = ((a i : ℝ) : EReal)) (hx1 : ∀ i, x1 i = ((K i : ℝ) : EReal)) (hx2 : ∀ i, x2 i = ((V i : ℝ) : EReal))

include hx0 hx1 in
/-- The first product: query row `r` against key row `n`. -/
theorem v1_real (r : Fin 1024) (n : Fin 100000) :
    val_main_v1 (F := Ideal) x0 x1 (ix2 r n) = ((∑ k : Fin 128, a (ix2 r k) * K (ix2 n k) : ℝ) : EReal) := by
  have el : ∀ k : Fin 128, lidx_main_v1 (ix2 r n) k = ix2 r k := fun k =>
    funext fun c => Fin.ext (by match c with | ⟨0, _⟩ => rfl | ⟨1, _⟩ => rfl)
  have er : ∀ k : Fin 128, idx_main_v0 (ridx_main_v1 (ix2 r n) k) = ix2 n k := fun k =>
    funext fun c => Fin.ext (by match c with | ⟨0, _⟩ => rfl | ⟨1, _⟩ => rfl)
  rw [val_main_v1_apply]
  refine Eq.trans (Finset.sum_congr rfl fun k _ => ?_) (coe_sum Finset.univ fun k => a (ix2 r k) * K (ix2 n k))
  rw [val_main_v0_apply, el, er, hx0, hx1, EReal.coe_mul]

include hx0 hx1 in
/-- The quotient by the temperature is the logit. -/
theorem v3_real (r : Fin 1024) (n : Fin 100000) :
    val_main_v3 (F := Ideal) x0 x1 (ix2 r n) = ((logit a K r n : ℝ) : EReal) := by
  rw [val_main_v3_apply, v1_real x0 x1 a K hx0 hx1, val_main_v2_apply, val_main_cst_apply, Ideal.ofBits_def, temperature_word,
    Ideal.hostDivf_def, div_coe_coe _ (by norm_num)]
  congr 1
  show (∑ k : Fin 128, a (ix2 r k) * K (ix2 n k)) / (5368709 / 536870912)
    = (∑ k : Fin 128, a (ix2 r k) * K (ix2 n k)) * (536870912 / 5368709)
  ring

include hx0 hx1 in
/-- The same at any index. -/
theorem v3_real_idx (i : S1024x100000.Idx) :
    val_main_v3 (F := Ideal) x0 x1 i = ((logit a K (i 0) (i 1) : ℝ) : EReal) := by
  exact (congrArg (val_main_v3 (F := Ideal) x0 x1) (eq_ix2 i)).trans (v3_real x0 x1 a K hx0 hx1 (i 0) (i 1))

include hx0 hx1 in
/-- The row maximum, folded from `-∞` over 100000 real logits, is a real number. -/
theorem v4_real (j : S1024.Idx) : ∃ M : ℝ, val_main_v4 (F := Ideal) x0 x1 j = (M : EReal) := by
  have h : S1024x100000.Reduces [1] S1024 := by decide
  unfold val_main_v4
  rw [Host.reduce_eq_fold_single _ _ _ _ h]
  have hf : (val_main_v3 (F := Ideal) x0 x1) ∘ h.lift j
      = fun k => ((logit a K ((h.lift j k) 0) ((h.lift j k) 1) : ℝ) : EReal) :=
    funext fun k => v3_real_idx x0 x1 a K hx0 hx1 _
  rw [hf, val_main_cst_0_apply, Ideal.ofBits_def, neg_inf_word]
  exact fold_max_real _ ⟨⟨0, by decide⟩, Finset.mem_univ _⟩ _ _ bot_ne_top

include hx0 hx1 in
/-- So is its maximum with `-∞`. -/
theorem v6_real (j : S1024.Idx) : ∃ M : ℝ, val_main_v6 (F := Ideal) x0 x1 j = (M : EReal) := by
  obtain ⟨M, hM⟩ := v4_real x0 x1 a K hx0 hx1 j
  refine ⟨M, ?_⟩
  rw [val_main_v6_apply, hM, val_main_v5_apply, val_main_cst_1_apply, Ideal.ofBits_def, neg_inf_word, Ideal.maximumf_def]
  exact max_eq_right bot_le

variable (r : Fin 1024) (M : ℝ) (hM : val_main_v6 (F := Ideal) x0 x1 (ix1 r) = (M : EReal))

include hx0 hx1 hM in
/-- The exponential of the logit shifted by the row's `M`. -/
theorem v10_real (n : Fin 100000) :
    val_main_v10 (F := Ideal) x0 x1 (ix2 r n) = ((Real.exp (logit a K r n - M) : ℝ) : EReal) := by
  have e8 : idx_main_v7 (idx_main_v8 (ix2 r n)) = ix1 r :=
    funext fun c => Fin.ext (by match c with | ⟨0, _⟩ => rfl)
  rw [val_main_v10_apply, val_main_v9_apply, v3_real x0 x1 a K hx0 hx1, val_main_v8_apply, val_main_v7_apply, e8, hM,
    Ideal.hostUnary_exp_def, Ideal.subf_def, exp_coe_sub_coe]

include hx0 hx1 hM in
/-- The row sum of the exponentials. -/
theorem v11_real :
    val_main_v11 (F := Ideal) x0 x1 (ix1 r) = ((∑ n : Fin 100000, Real.exp (logit a K r n - M) : ℝ) : EReal) := by
  have e : ∀ n : Fin 100000, idx_main_v11 (ix1 r) n = ix2 r n := fun n =>
    funext fun c => Fin.ext (by match c with | ⟨0, _⟩ => rfl | ⟨1, _⟩ => rfl)
  rw [val_main_v11_apply, val_main_cst_2_apply, Ideal.ofBits_def, zero_word, zero_add]
  refine Eq.trans (Finset.sum_congr rfl fun n _ => ?_) (coe_sum Finset.univ fun n => Real.exp (logit a K r n - M))
  rw [e, v10_real x0 x1 a K hx0 hx1 r M hM]

include hx0 hx1 hM in
/-- The normalised weight: the row sum is positive, so the quotient is the real one. -/
theorem v14_real (n : Fin 100000) :
    val_main_v14 (F := Ideal) x0 x1 (ix2 r n)
      = ((Real.exp (logit a K r n - M) / (∑ n' : Fin 100000, Real.exp (logit a K r n' - M)) : ℝ) : EReal) := by
  haveI : Nonempty (Fin 100000) := ⟨⟨0, by norm_num⟩⟩
  have e13 : idx_main_v12 (idx_main_v13 (ix2 r n)) = ix1 r :=
    funext fun c => Fin.ext (by match c with | ⟨0, _⟩ => rfl)
  rw [val_main_v14_apply, v10_real x0 x1 a K hx0 hx1 r M hM, val_main_v13_apply, val_main_v12_apply, e13,
    v11_real x0 x1 a K hx0 hx1 r M hM, Ideal.hostDivf_def,
    div_coe_coe _ (sum_exp_pos fun n' : Fin 100000 => logit a K r n' - M).ne']

include hx0 hx1 hx2 hM in
/-- The second product: the normalised weights against column `q` of the values. -/
theorem v15_real (q : Fin 128) :
    val_main_v15 (F := Ideal) x0 x1 x2 (ix2 r q)
      = ((∑ n : Fin 100000, Real.exp (logit a K r n - M) / (∑ n' : Fin 100000, Real.exp (logit a K r n' - M)) * V (ix2 n q) : ℝ) : EReal) := by
  have el : ∀ n : Fin 100000, lidx_main_v15 (ix2 r q) n = ix2 r n := fun n =>
    funext fun c => Fin.ext (by match c with | ⟨0, _⟩ => rfl | ⟨1, _⟩ => rfl)
  have er : ∀ n : Fin 100000, ridx_main_v15 (ix2 r q) n = ix2 n q := fun n =>
    funext fun c => Fin.ext (by match c with | ⟨0, _⟩ => rfl | ⟨1, _⟩ => rfl)
  rw [val_main_v15_apply]
  refine Eq.trans (Finset.sum_congr rfl fun n _ => ?_) (coe_sum Finset.univ fun n =>
    Real.exp (logit a K r n - M) / (∑ n' : Fin 100000, Real.exp (logit a K r n' - M)) * V (ix2 n q))
  rw [el, er, v14_real x0 x1 a K hx0 hx1 r M hM, hx2, EReal.coe_mul]

end Stages

/-! ## The reference is the specification -/

/-- On real argument arrays the reference's result term is the specification. -/
theorem ref_is_attn (x0 : (⟨S1024x128, .f32⟩ : BufTy).Contents (Elt Ideal)) (x1 x2 : (⟨S100000x128, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal)) :
    Cert.ReferenceIdeal.Read.val_main_v15 (F := Ideal) x0 x1 x2 = Cert.Attn.G x0 x1 x2 := by
  haveI : Nonempty (Fin 100000) := ⟨⟨0, by norm_num⟩⟩
  choose a ha using h0
  choose K hK using h1
  choose V hV using h2
  have ea : (fun c => (x0 c).toReal) = a := funext fun c => by rw [ha, EReal.toReal_coe]
  have eK : (fun c => (x1 c).toReal) = K := funext fun c => by rw [hK, EReal.toReal_coe]
  have eV : (fun c => (x2 c).toReal) = V := funext fun c => by rw [hV, EReal.toReal_coe]
  funext i
  obtain ⟨r, q, rfl⟩ : ∃ (r : Fin 1024) (q : Fin 128), i = ix2 r q := ⟨i 0, i 1, eq_ix2 i⟩
  obtain ⟨M, hM⟩ := v6_real x0 x1 a K ha hK (ix1 r)
  rw [v15_real x0 x1 x2 a K V ha hK hV r M hM q]
  show _ = ((attn (fun c => (x0 c).toReal) (fun c => (x1 c).toReal) (fun c => (x2 c).toReal) r q : ℝ) : EReal)
  rw [ea, eK, eV]
  refine congrArg Real.toEReal ?_
  rw [sum_normalised]
  unfold attn
  exact shifted_quot (fun n => logit a K r n) (fun n => V (ix2 n q)) M

end Cert.ReferenceIdeal.RefValue

end
-- ==== Proof.Finite.lean ====
/-
  The precondition says every entry of the three argument arrays is a real number: each array's `|x| < +∞` test is
  all ones, so no entry is `+∞` or `-∞`.
-/
import proofs.«150222_g335007450007_cont_8to1_b_1674_5_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Attn

open Idealize.ShloMosaic

/-- The result shape of a reduction over all axes has exactly one index. -/
instance : Subsingleton Cert.Pre_finite_inputs.S_.Idx := ⟨fun a b => funext fun d => d.elim0⟩

/-- The word `0x7F800000` denotes `+∞`. -/
theorem inf_word : Ideal.ofBits .f32 0x7F800000#32 = (⊤ : EReal) := by
  simp [Ideal.ofBits, Ideal.ieee]

/-- An extended real whose absolute value `max x (-x)` is strictly below `+∞` is a real number:
    at `+∞` the maximum is `+∞`, at `-∞` it is `-(-∞) = +∞`, and neither is below `+∞`. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- One array's test read back: if the all-reduce by `and` of `|x| < +∞` is one, every entry of `x` is real. -/
theorem entries_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1) :
    ∀ i, ∃ r : ℝ, x i = (r : EReal) := by
  intro i
  have hi := Host.reduce_andi_all _ _ hr hu ValueIdx.ix0 e i
  exact real_of_abs_lt_inf (x i) hi

/-- Under the precondition every entry of the query, key and value arrays is a real number. -/
theorem finite_of_pre [Cert.Pre_finite_inputs.Facts]
    (x0 : FVec Ideal Cert.Pre_finite_inputs.S1024x128 .f32) (x1 x2 : FVec Ideal Cert.Pre_finite_inputs.S100000x128 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn, andi] at h0
  obtain ⟨h01, h2⟩ := IntOp.andi_eq_one.1 h0
  obtain ⟨h0', h1⟩ := IntOp.andi_eq_one.1 h01
  exact ⟨entries_real x0 _ _ _ h0', entries_real x1 _ _ _ h1, entries_real x2 _ _ _ h2⟩

end Cert.Attn

end
-- ==== Proof.lean ====
/-
  A blocked, online-softmax attention program against its plain reference:

      result (r, q) = ∑ n, softmax_n ((x r · K n) / τ) * V n q        over 100000 key rows n,

  for 1024 query rows and 128 value columns. The blocked program walks the key rows in 125 blocks of 800 for each block
  of 256 query rows, carrying a running maximum, a running sum of weights and a weighted accumulator, rescaling the two
  sums whenever the maximum grows, and divides once at the end. The reference forms all logits, subtracts the row maximum,
  exponentiates, normalises and multiplies by the values.

  Both are the same function of finite inputs. The blocked program multiplies the dot products by a constant that denotes
  `1 / τ` for the reference's `τ = 5368709 / 2^29`, and division by a nonzero real is multiplication by its reciprocal.
  Softmax is unchanged by shifting every logit of a row by one real number, so neither maximum has to be identified: the
  invariant of the running sums holds for the shift the program happens to carry, the reference's quotient for its own,
  and both equal the unshifted quotient. Finiteness of the inputs is what makes every logit, maximum and sum a real
  number, so that the sums distribute over the rescaling.
-/
import proofs.«150222_g335007450007_cont_8to1_b_1674_5_alg».proof.Defs
import proofs.«150222_g335007450007_cont_8to1_b_1674_5_alg».proof.Proof.Gen.Kernel
import proofs.«150222_g335007450007_cont_8to1_b_1674_5_alg».proof.Proof.Gen.Kernel.Skeleton
import proofs.«150222_g335007450007_cont_8to1_b_1674_5_alg».proof.Proof.Gen.Kernel.Launch
import proofs.«150222_g335007450007_cont_8to1_b_1674_5_alg».proof.Proof.Gen.Kernel.Points
import proofs.«150222_g335007450007_cont_8to1_b_1674_5_alg».proof.Proof.Gen.Kernel.Frame
import proofs.«150222_g335007450007_cont_8to1_b_1674_5_alg».proof.Proof.Gen.KernelIdeal
import proofs.«150222_g335007450007_cont_8to1_b_1674_5_alg».proof.Proof.Gen.KernelIdeal.Skeleton
import proofs.«150222_g335007450007_cont_8to1_b_1674_5_alg».proof.Proof.Gen.KernelIdeal.Launch
import proofs.«150222_g335007450007_cont_8to1_b_1674_5_alg».proof.Proof.Gen.KernelIdeal.Points
import proofs.«150222_g335007450007_cont_8to1_b_1674_5_alg».proof.Proof.Gen.KernelIdeal.Frame
import proofs.«150222_g335007450007_cont_8to1_b_1674_5_alg».proof.Proof.Gen.ReferenceIdeal
import proofs.«150222_g335007450007_cont_8to1_b_1674_5_alg».proof.Proof.Gen.Pre_finite_inputs
import proofs.«150222_g335007450007_cont_8to1_b_1674_5_alg».proof.Proof.Gen.KernelIdeal.Value
import proofs.«150222_g335007450007_cont_8to1_b_1674_5_alg».proof.Proof.Gen.ReferenceIdeal.Run
import proofs.«150222_g335007450007_cont_8to1_b_1674_5_alg».proof.Proof.Gen.ReferenceIdeal.Read
import proofs.«150222_g335007450007_cont_8to1_b_1674_5_alg».proof.Proof.KernelValue
import proofs.«150222_g335007450007_cont_8to1_b_1674_5_alg».proof.Proof.RefValue
import proofs.«150222_g335007450007_cont_8to1_b_1674_5_alg».proof.Proof.Finite
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_kernel : Cert.frame_Kernel := fun m ρ _ => Cert.Kernel.Gen.frame m ρ

/-- So does the program read at exact values. -/
theorem frame_kernelIdeal : Cert.frame_KernelIdeal := fun m ρ _ => Cert.KernelIdeal.Gen.frame m ρ

/-- The reference is a straight line of array operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one named constant: the logit scale denotes `536870912 / 5368709`, the reciprocal of the temperature. -/
theorem preserves : Cert.preserves_Kernel_KernelIdeal :=
  IdealRules.named_const.statement Cert.KernelIdeal.κ "inv_tau" .f32 0x42C80000#32 ((536870912 / 5368709 : ℝ) : EReal) rfl

/-- From memories that agree on finite arguments both programs end with the specification of the arguments. -/
theorem algebraic : Cert.algebraic_KernelIdeal_ReferenceIdeal := by
  intro m ρ m' ρ' hpre hagree
  have hfin := fun c => Cert.Attn.finite_of_pre _ _ _ (hpre c)
  refine ⟨fun c => Cert.Attn.G (Cert.KernelIdeal.Online.qarr m c) (Cert.KernelIdeal.Online.karr m c) (Cert.KernelIdeal.Online.varr m c), ?_, ?_⟩
  · refine (θ_run Cert.KernelIdeal.defs _ _).mono (fun r h c => ⟨(h c).1.trans ?_, (h c).2⟩)
      (Cert.KernelIdeal.Value.run_blocks (F := Ideal) m ρ)
    obtain ⟨h0, h1, h2⟩ := hfin c
    choose xR hx using h0
    choose KR hk using h1
    choose VR hv using h2
    exact Cert.KernelIdeal.Online.final xR KR VR m c hx hk hv
  · refine (θ_run Cert.ReferenceIdeal.defs _ _).mono (fun r h c => ⟨(h c).1.trans ?_, (h c).2⟩)
      (Cert.ReferenceIdeal.Value.run (F := Ideal) m' ρ')
    obtain ⟨h0, h1, h2⟩ := hfin c
    refine (Cert.ReferenceIdeal.Read.val_main_v15_eq (F := Ideal) _ _ _).trans ?_
    rw [(hagree c).1, (hagree c).2.1, (hagree c).2.2]
    exact Cert.ReferenceIdeal.RefValue.ref_is_attn _ _ _ h0 h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
